-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn_part1 {F : FTy → Type} [FloatOps F] (main_v13 : IVec S_ 1) (main_v16 : IVec S16777216 1) : IVec S_ 1 :=
  let main_c_5 : IVec S_ 1 := constantI S_ 1 1#1
  let main_v17 : IVec S_ 1 := (fun x v => Host.reduce IntOp.andi x v reducesTo_S16777216_S_d0 h_S_) main_v16 main_c_5
  let main_v18 : IVec S_ 1 := andi main_v13 main_v17
  main_v18

def fn {F : FTy → Type} [FloatOps F] (main_arg0 : FVec F S16777216 .f32) (main_arg1 : FVec F S16777216 .f32) (main_arg2 : FVec F S16777216 .f32) (main_arg3 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S16777216 .f32 := Host.absf main_arg2
  let main_cst_2 : FVec F S_ .f32 := constant S_ .f32 0x7F800000#32
  let main_v10 : FVec F S16777216 .f32 := broadcastInDim S16777216 ![] bcast_S_S16777216 main_cst_2
  let main_v11 : IVec S16777216 1 := cmpf .olt main_v9 main_v10
  let main_c_3 : IVec S_ 1 := constantI S_ 1 1#1
  let main_v12 : IVec S_ 1 := (fun x v => Host.reduce IntOp.andi x v reducesTo_S16777216_S_d0 h_S_) main_v11 main_c_3
  let main_v13 : IVec S_ 1 := andi main_v8 main_v12
  let main_v14 : FVec F S16777216 .f32 := Host.absf main_arg3
  let main_cst_4 : FVec F S_ .f32 := constant S_ .f32 0x7F800000#32
  let main_v15 : FVec F S16777216 .f32 := broadcastInDim S16777216 ![] bcast_S_S16777216 main_cst_4
  let main_v16 : IVec S16777216 1 := cmpf .olt main_v14 main_v15
  fn_part1 (F := F) main_v13 main_v16
-- ==== Kernel.lean ====
abbrev S16777216 : Shape := ⟨1, ![16777216]⟩
abbrev S131072x128 : Shape := ⟨2, ![131072, 128]⟩
abbrev S1x1 : Shape := ⟨2, ![1, 1]⟩
abbrev S2048x128 : Shape := ⟨2, ![2048, 128]⟩
abbrev S1x128 : Shape := ⟨2, ![1, 128]⟩
abbrev S2048 : Shape := ⟨1, ![2048]⟩
abbrev S2048x1 : Shape := ⟨2, ![2048, 1]⟩
abbrev S1 : Shape := ⟨1, ![1]⟩
abbrev S_ : Shape := ⟨0, ![]⟩

abbrev nBuf : Space → Nat
  | .hbm => 12
  | .vmem => 11
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S16777216, .f32⟩
  | .hbm, ⟨4, _⟩ => ⟨S131072x128, .f32⟩
  | .hbm, ⟨5, _⟩ => ⟨S131072x128, .f32⟩
  | .hbm, ⟨6, _⟩ => ⟨S131072x128, .f32⟩
  | .hbm, ⟨7, _⟩ => ⟨S131072x128, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1x1, .f32⟩
  | .local _ .vmem, ⟨9, _⟩ => ⟨S1x128, .f32⟩
  | .local _ .vmem, ⟨10, _⟩ => ⟨S1x128, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v407 : BitVec 1 := Scalar.cmpi .eq arg0 c63_i32
  let v408 : BitVec 32 := Scalar.extui v407
  let c0_i32_187 : BitVec 32 := 0#32
  let v409 : BitVec 1 := Scalar.cmpi .ne v408 c0_i32_187
  v409

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S16777216_S131072x128 : S16777216.ShapeCasts S131072x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  natLt_1_32 : 1 < 32
  reduces_S2048x128_S2048 : S2048x128.Reduces [1] S2048
  shapeCasts_S2048_S2048x1 : S2048.ShapeCasts S2048x1
  reduces_S2048x1_S1 : S2048x1.Reduces [0] S1
  shapeCasts_S1_S1x1 : S1.ShapeCasts S1x1
  inb_S1x128_S1x1_0_0 : ∀ a, (![0, 0] : Fin 2 → Nat) a + S1x1.size a ≤ S1x128.size a
  h_S1x1 : 0 < S1x1.numel
  shapeCasts_S1x1_S1x1 : S1x1.ShapeCasts S1x1
  inb_S1x128_S1x1_0_1 : ∀ a, (![0, 1] : Fin 2 → Nat) a + S1x1.size a ≤ S1x128.size a
  inb_S1x128_S1x1_0_2 : ∀ a, (![0, 2] : Fin 2 → Nat) a + S1x1.size a ≤ S1x128.size a
  inb_S1x128_S1x1_0_3 : ∀ a, (![0, 3] : Fin 2 → Nat) a + S1x1.size a ≤ S1x128.size a
  inb_S1x128_S1x1_0_4 : ∀ a, (![0, 4] : Fin 2 → Nat) a + S1x1.size a ≤ S1x128.size a
  inb_S1x128_S1x1_0_5 : ∀ a, (![0, 5] : Fin 2 → Nat) a + S1x1.size a ≤ S1x128.size a
  inb_S1x128_S1x1_0_6 : ∀ a, (![0, 6] : Fin 2 → Nat) a + S1x1.size a ≤ S1x128.size a
  inb_S1x128_S1x1_0_7 : ∀ a, (![0, 7] : Fin 2 → Nat) a + S1x1.size a ≤ S1x128.size a
  inb_S1x128_S1x1_0_8 : ∀ a, (![0, 8] : Fin 2 → Nat) a + S1x1.size a ≤ S1x128.size a
  inb_S1x128_S1x1_0_9 : ∀ a, (![0, 9] : Fin 2 → Nat) a + S1x1.size a ≤ S1x128.size a
  inb_S1x128_S1x1_0_10 : ∀ a, (![0, 10] : Fin 2 → Nat) a + S1x1.size a ≤ S1x128.size a
  inb_S1x128_S1x1_0_11 : ∀ a, (![0, 11] : Fin 2 → Nat) a + S1x1.size a ≤ S1x128.size a
  inb_S1x128_S1x1_0_12 : ∀ a, (![0, 12] : Fin 2 → Nat) a + S1x1.size a ≤ S1x128.size a
  inb_S1x128_S1x1_0_13 : ∀ a, (![0, 13] : Fin 2 → Nat) a + S1x1.size a ≤ S1x128.size a
  inb_S1x128_S1x1_0_14 : ∀ a, (![0, 14] : Fin 2 → Nat) a + S1x1.size a ≤ S1x128.size a
  reduces_S1x128_S1 : S1x128.Reduces [1] S1
  inb_S1x1_S1x1_0_0 : ∀ a, (![0, 0] : Fin 2 → Nat) a + S1x1.size a ≤ S1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S131072x128.size a
  hwx0_2 : ∀ i : grid0.Coords, EltTy.bits .f32 = 32 ∨ (Rect.block (s := S131072x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S131072x128.size a
  hwx0_3 : ∀ i : grid0.Coords, EltTy.bits .f32 = 32 ∨ (Rect.block (s := S131072x128) S2048x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16777216 : Shape := ⟨1, ![16777216]⟩
abbrev S_ : Shape := ⟨0, ![]⟩
abbrev S15 : Shape := ⟨1, ![15]⟩
abbrev S16777216x1 : Shape := ⟨2, ![16777216, 1]⟩

abbrev nBuf : Space → Nat
  | .hbm => 70
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S16777216, .f32⟩
  | .hbm, ⟨4, _⟩ => ⟨S16777216, .f32⟩
  | .hbm, ⟨5, _⟩ => ⟨S16777216, .f32⟩
  | .hbm, ⟨6, _⟩ => ⟨S_, .f32⟩
  | .hbm, ⟨7, _⟩ => ⟨S16777216, .f32⟩
  | .hbm, ⟨8, _⟩ => ⟨S16777216, .f32⟩
  | .hbm, ⟨9, _⟩ => ⟨S_, .f32⟩
  | .hbm, ⟨10, _⟩ => ⟨S16777216, .f32⟩
  | .hbm, ⟨11, _⟩ => ⟨S16777216, .f32⟩
  | .hbm, ⟨12, _⟩ => ⟨S16777216, .f32⟩
  | .hbm, ⟨13, _⟩ => ⟨S_, .f32⟩
  | .hbm, ⟨14, _⟩ => ⟨S16777216, .f32⟩
  | .hbm, ⟨15, _⟩ => ⟨S16777216, .f32⟩
  | .hbm, ⟨16, _⟩ => ⟨S_, .f32⟩
  | .hbm, ⟨17, _⟩ => ⟨S16777216, .f32⟩
  | .hbm, ⟨18, _⟩ => ⟨S16777216, .f32⟩
  | .hbm, ⟨19, _⟩ => ⟨S_, .f32⟩
  | .hbm, ⟨20, _⟩ => ⟨S16777216, .f32⟩
  | .hbm, ⟨21, _⟩ => ⟨S16777216, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S16777216, .f32⟩
  | .hbm, ⟨26, _⟩ => ⟨S16777216, .f32⟩
  | .hbm, ⟨27, _⟩ => ⟨S_, .f32⟩
  | .hbm, ⟨28, _⟩ => ⟨S16777216, .f32⟩
  | .hbm, ⟨29, _⟩ => ⟨S16777216, .f32⟩
  | .hbm, ⟨30, _⟩ => ⟨S_, .f32⟩
  | .hbm, ⟨31, _⟩ => ⟨S16777216, .f32⟩
  | .hbm, ⟨32, _⟩ => ⟨S16777216, .f32⟩
  | .hbm, ⟨33, _⟩ => ⟨S_, .f32⟩
  | .hbm, ⟨34, _⟩ => ⟨S16777216, .f32⟩
  | .hbm, ⟨35, _⟩ => ⟨S16777216, .i1⟩
  | .hbm, ⟨36, _⟩ => ⟨S_, .f32⟩
  | .hbm, ⟨37, _⟩ => ⟨S16777216, .f32⟩
  | .hbm, ⟨38, _⟩ => ⟨S16777216, .i1⟩
  | .hbm, ⟨39, _⟩ => ⟨S16777216, .i1⟩
  | .hbm, ⟨40, _⟩ => ⟨S_, .f32⟩
  | .hbm, ⟨41, _⟩ => ⟨S16777216, .f32⟩
  | .hbm, ⟨42, _⟩ => ⟨S16777216, .f32⟩
  | .hbm, ⟨43, _⟩ => ⟨S16777216, .f32⟩
  | .hbm, ⟨44, _⟩ => ⟨S16777216, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S16777216, .i32⟩
  | .hbm, ⟨49, _⟩ => ⟨S16777216, .i32⟩
  | .hbm, ⟨50, _⟩ => ⟨S_, .i32⟩
  | .hbm, ⟨51, _⟩ => ⟨S16777216, .i32⟩
  | .hbm, ⟨52, _⟩ => ⟨S16777216, .i32⟩
  | .hbm, ⟨53, _⟩ => ⟨S16777216, .f32⟩
  | .hbm, ⟨54, _⟩ => ⟨S16777216, .f32⟩
  | .hbm, ⟨55, _⟩ => ⟨S_, .f32⟩
  | .hbm, ⟨56, _⟩ => ⟨S15, .f32⟩
  | .hbm, ⟨57, _⟩ => ⟨S16777216x1, .i32⟩
  | .hbm, ⟨58, _⟩ => ⟨S15, .f32⟩
  | .hbm, ⟨59, _⟩ => ⟨S16777216, .f32⟩
  | .hbm, ⟨60, _⟩ => ⟨S_, .f32⟩
  | .hbm, ⟨61, _⟩ => ⟨S15, .f32⟩
  | .hbm, ⟨62, _⟩ => ⟨S16777216x1, .i32⟩
  | .hbm, ⟨63, _⟩ => ⟨S15, .f32⟩
  | .hbm, ⟨64, _⟩ => ⟨S15, .f32⟩
  | .hbm, ⟨65, _⟩ => ⟨S15, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v13 : Ref sig .tc := ⟨.hbm, 29, rfl⟩
abbrev main_cst_6 : Ref sig .tc := ⟨.hbm, 30, rfl⟩
abbrev main_v14 : Ref sig .tc := ⟨.hbm, 31, rfl⟩
abbrev main_v15 : Ref sig .tc := ⟨.hbm, 32, rfl⟩
abbrev main_cst_7 : Ref sig .tc := ⟨.hbm, 33, rfl⟩
abbrev main_v16 : Ref sig .tc := ⟨.hbm, 34, rfl⟩
abbrev main_v17 : Ref sig .tc := ⟨.hbm, 35, rfl⟩
abbrev main_cst_8 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_9 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c : Ref sig .tc := ⟨.hbm, 45, rfl⟩
abbrev main_c_10 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_11 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_12 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_13 : Ref sig .tc := ⟨.hbm, 66, rfl⟩
abbrev main_v37 : Ref sig .tc := ⟨.hbm, 67, rfl⟩
abbrev main_cst_14 : Ref sig .tc := ⟨.hbm, 68, rfl⟩
abbrev main_v38 : Ref sig .tc := ⟨.hbm, 69, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S_S15 : S_.BroadcastsInDim S15 (![] : Fin 0 → Fin S15.rank)
  bcast_S16777216_S16777216x1_0 : S16777216.BroadcastsInDim S16777216x1 (![0] : Fin 1 → Fin S16777216x1.rank)
  reducesTo_S15_S_d0 : S15.ReducesTo [0] S_
  h_S_ : 0 < S_.numel
  scatter_S15_S16777216x1_S16777216_n_0_0_1_wf : ScatterDims.WF S15 S16777216x1 S16777216 [] [0] [0] 1

variable [Facts₀]

def scatter_S15_S16777216x1_S16777216_n_0_0_1 : ScatterDims S15 S16777216x1 S16777216 where
  updateWindowDims := []
  insertedWindowDims := [0]
  scatterDimsToOperandDims := [0]
  indexVectorDim := 1
  wf := scatter_S15_S16777216x1_S16777216_n_0_0_1_wf

class Facts : Prop extends Facts₀ where

variable [Facts]
-- ==== Proof.Spec.lean ====
/-
  The mathematics of this certificate, over the extended reals, with no program in sight.

  Per sample, from the four inputs gamma (g), alpha (a), beta (b) and the target (t):
    the confidence  conf = 1 / (1 + b / ((a - 1) + eps)),
    the accuracy    acc  = 1 - min 1 (max 0 (|t - g| / 2)),
    the weight      w    = 1 when 0 ≤ conf ≤ 1 and 0 otherwise,
    the bin         the integer part of floor (conf · 15), clamped to 0 … 14.
  Per bin, the total of conf · w and the total of acc · w over the samples of that bin; the result is the sum
  over the fifteen bins of the absolute difference of the two totals, divided by the number of samples.

  One program adds the samples of a bin wherever they are (a sum over the samples whose bin it is); the other
  walks the 16,777,216 samples as 64 blocks of 2048 rows of 128 lanes, multiplies by a 0/1 mask per bin, sums
  lanes, then rows, then blocks, and keeps the fifteen totals in the first fifteen lanes of a row of 128 whose
  other lanes stay zero. Sums over the extended reals are sums in a commutative monoid, and a factor 0 or 1
  needs only x · 1 = x and x · 0 = 0, so no finiteness is used anywhere.
-/
import Idealize.ShloMosaic.PureOps.Ideal
import Idealize.ShloMosaic.PureOps.Ideal.Laws
import Idealize.ShloMosaic.Lib.ValueIdx

noncomputable section

namespace Cert.Calib

open Idealize.ShloMosaic Idealize.ShloMosaic.ValueIdx

/-- The flat arrays: 16,777,216 samples. -/
abbrev SFlat : Shape := ⟨1, ![16777216]⟩
/-- One block: 2048 rows of 128 lanes. -/
abbrev SBlk : Shape := ⟨2, ![2048, 128]⟩
/-- The carried row: 128 lanes, of which the first fifteen are the bins. -/
abbrev SRow : Shape := ⟨2, ![1, 128]⟩

abbrev fZero : EReal := Ideal.ofBits .f32 0x00000000#32
abbrev fOne : EReal := Ideal.ofBits .f32 0x3F800000#32
abbrev fTwo : EReal := Ideal.ofBits .f32 0x40000000#32
abbrev fEps : EReal := Ideal.ofBits .f32 0x322BCC77#32
abbrev fFifteen : EReal := Ideal.ofBits .f32 0x41700000#32
abbrev fCount : EReal := Ideal.ofBits .f32 0x4B800000#32

/-- The confidence of a sample with parameters `a` (alpha) and `b` (beta). -/
def confS (a b : EReal) : EReal := Ideal.div fOne (fOne + Ideal.div b ((a - fOne) + fEps))

/-- The accuracy of a prediction `g` against a target `t`. -/
def accS (g t : EReal) : EReal := fOne - min fOne (max fZero (Ideal.div (max (t - g) (-(t - g))) fTwo))

/-- Whether the confidence lies in [0, 1], as one bit. -/
def validS (a b : EReal) : BitVec 1 :=
  IntOp.andi (Ideal.cmp .oge (confS a b) fZero) (Ideal.cmp .ole (confS a b) fOne)

/-- The bin of a sample: floor (conf · 15) as a signed word, clamped to 0 … 14. -/
def binS (a b : EReal) : BitVec 32 :=
  IntOp.minsi 14#32 (IntOp.maxsi 0#32 (Ideal.fptosi 32 (Ideal.liftRound Int.floor (confS a b * fFifteen))))

/-- The weight of a sample: 1 when its confidence is valid, 0 otherwise. -/
def wS (a b : EReal) : EReal := (((validS a b).toNat : ℝ) : EReal)

/-- The weighted confidence and the weighted accuracy of a sample. -/
def cwS (a b : EReal) : EReal := confS a b * wS a b
def awS (g t a b : EReal) : EReal := accS g t * wS a b

/-- A value kept when the sample's bin `k` is the bin `b`, zero otherwise. -/
def pick (k b : BitVec 32) (x : EReal) : EReal := if k = b then x else 0

/-- The absolute value on the extended reals. -/
def absE (x : EReal) : EReal := max x (-x)

/-- The total of `f` over the samples whose bin is `b`. -/
def binTot (f : SFlat.Idx → EReal) (k : SFlat.Idx → BitVec 32) (b : BitVec 32) : EReal :=
  ∑ j ∈ Finset.univ.filter (fun j => k j = b), f j

/-- THE RESULT: the sum over the fifteen bins of |total weighted confidence - total weighted accuracy|, over the
    number of samples. Arguments in the programs' order: gamma, alpha, beta, targets. -/
def ece (a0 a1 a2 a3 : SFlat.Idx → EReal) : EReal :=
  Ideal.div
    (∑ b : Fin 15, absE
      (binTot (fun j => cwS (a1 j) (a2 j)) (fun j => binS (a1 j) (a2 j)) (BitVec.ofNat 32 b.val)
        - binTot (fun j => awS (a0 j) (a3 j) (a1 j) (a2 j)) (fun j => binS (a1 j) (a2 j)) (BitVec.ofNat 32 b.val)))
    fCount

/-- Block `t` of a flat array: row `r`, lane `l` of block `t` is sample 128 · (2048 · t + r) + l. -/
def blkOf {α : Type} (a : SFlat.Idx → α) (t : ℕ) (ht : t < 64) : SBlk.Idx → α :=
  fun y => a (ix1 ⟨128 * (2048 * t + (y 0).val) + (y 1).val, by
    have h0 := idx2_lt0 y; have h1 := idx2_lt1 y; omega⟩)

/-- One block's total for bin `b`: lanes first, then rows. -/
def blockTot (f : SBlk.Idx → EReal) (k : SBlk.Idx → BitVec 32) (b : BitVec 32) : EReal :=
  ∑ r : Fin 2048, ∑ l : Fin 128, pick (k (ix2 r l)) b (f (ix2 r l))

/-- One block added into the carried row: lane `l` < 15 gains the block's total for bin `l`, the other lanes keep. -/
def rowStep (f : SBlk.Idx → EReal) (k : SBlk.Idx → BitVec 32) (xs : SRow.Idx → EReal) : SRow.Idx → EReal :=
  fun y => if (y 1).val < 15 then xs y + blockTot f k (BitVec.ofNat 32 (y 1).val) else xs y

/-- The carried row after blocks 0 … n, started from the zero row. -/
def rowAfter (f : ℕ → SBlk.Idx → EReal) (k : ℕ → SBlk.Idx → BitVec 32) : ℕ → SRow.Idx → EReal
  | 0 => rowStep (f 0) (k 0) (fun _ => 0)
  | n + 1 => rowStep (f (n + 1)) (k (n + 1)) (rowAfter f k n)

/-- The sum over the 128 lanes of the absolute difference of two rows. -/
def laneGap (p q : SRow.Idx → EReal) : EReal := ∑ l : Fin 128, absE (p (ix2 0 l) - q (ix2 0 l))

end Cert.Calib

end
-- ==== Proof.SpecLaws.lean ====
/-
  Laws of the sums in Spec.lean: the carried row after all 64 blocks holds, in its first fifteen lanes, the
  per-bin totals over the blocks and zero elsewhere; the 64 · 2048 · 128 positions of the blocks are the
  16,777,216 samples, each once; a 0/1 mask factor keeps or drops a term.
-/
import proofs.«140573_j48258252538340_1_alg».proof.Proof.Spec

noncomputable section

namespace Cert.Calib

open Idealize.ShloMosaic Idealize.ShloMosaic.ValueIdx

/-- A one-bit word widened to 32 bits and read signed is the bit itself, as an integer. -/
private theorem SpecLaws_toInt_setWidth_one (v : BitVec 1) : (v.setWidth 32).toInt = (v.toNat : ℤ) := by
  rcases BitVec.eq_zero_or_eq_one v with h | h <;> subst h <;> decide

/-- A one-bit word widened to 32 bits and read signed is the bit itself. -/
theorem coe_toInt_setWidth_one (v : BitVec 1) : (((v.setWidth 32).toInt : ℝ) : EReal) = ((v.toNat : ℝ) : EReal) := by
  rw [SpecLaws_toInt_setWidth_one, Int.cast_natCast]

/-- Multiplying by the 0/1 value of the test "the bin is `b`" keeps the term for that bin and drops it otherwise. -/
theorem mul_mask (x : EReal) (k b : BitVec 32) :
    x * ((((IntOp.cmpi .eq k b).setWidth 32).toInt : ℝ) : EReal) = pick k b x := by
  unfold pick
  by_cases h : k = b
  · -- the test is the bit 1, whose value is the real 1, and x · 1 = x
    have hc : IntOp.cmpi .eq k b = 1#1 := by simp [IntOp.cmpi, h]
    have h1 : ((1#1 : BitVec 1).setWidth 32).toInt = 1 := by decide
    rw [hc, h1, if_pos h, Int.cast_one, EReal.coe_one, mul_one]
  · -- the test is the bit 0, whose value is the real 0, and x · 0 = 0
    have hb : (k == b) = false := beq_eq_false_iff_ne.mpr h
    have hc : IntOp.cmpi .eq k b = 0#1 := by simp [IntOp.cmpi, hb]
    have h0 : ((0#1 : BitVec 1).setWidth 32).toInt = 0 := by decide
    rw [hc, h0, if_neg h, Int.cast_zero, EReal.coe_zero, mul_zero]

/-- Lane `l` of the carried row after blocks 0 … n: the sum of the blocks' totals for bin `l` when `l` is one of the
    fifteen bins, and zero otherwise (the row starts at zero and a step leaves the lanes from fifteen on alone). -/
private theorem SpecLaws_rowAfter_lane (f : ℕ → SBlk.Idx → EReal) (k : ℕ → SBlk.Idx → BitVec 32) (n : ℕ) (l : Fin 128) :
    rowAfter f k n (ix2 0 l)
      = if l.val < 15 then ∑ t ∈ Finset.range (n + 1), blockTot (f t) (k t) (BitVec.ofNat 32 l.val) else 0 := by
  induction n with
  | zero =>
    show (if l.val < 15 then (0 : EReal) + blockTot (f 0) (k 0) (BitVec.ofNat 32 l.val) else 0) = _
    by_cases h : l.val < 15
    · rw [if_pos h, if_pos h, zero_add, Finset.sum_range_one]
    · rw [if_neg h, if_neg h]
  | succ n ih =>
    show (if l.val < 15 then rowAfter f k n (ix2 0 l) + blockTot (f (n + 1)) (k (n + 1)) (BitVec.ofNat 32 l.val)
      else rowAfter f k n (ix2 0 l)) = _
    rw [ih]
    by_cases h : l.val < 15
    · rw [if_pos h, if_pos h, if_pos h, Finset.sum_range_succ _ (n + 1)]
    · rw [if_neg h, if_neg h, if_neg h]

/-- A sum over 128 lanes of a term that vanishes from lane fifteen on is the sum over the first fifteen lanes. -/
private theorem SpecLaws_sum_first15 (g : ℕ → EReal) :
    ∑ l : Fin 128, (if l.val < 15 then g l.val else 0) = ∑ b : Fin 15, g b.val := by
  rw [Fin.sum_univ_eq_sum_range (fun i => if i < 15 then g i else 0) 128, Fin.sum_univ_eq_sum_range g 15,
    ← Finset.sum_filter]
  refine Finset.sum_congr ?_ fun _ _ => rfl
  ext i
  simp only [Finset.mem_filter, Finset.mem_range]
  omega

/-- After all 64 blocks, the gap between two carried rows is the sum over the fifteen bins of the absolute difference of
    the totals over the blocks: lanes fifteen and up stayed zero in both rows. -/
theorem laneGap_rowAfter (fc fa : ℕ → SBlk.Idx → EReal) (k : ℕ → SBlk.Idx → BitVec 32) :
    laneGap (rowAfter fc k 63) (rowAfter fa k 63)
      = ∑ b : Fin 15, absE ((∑ t : Fin 64, blockTot (fc t.val) (k t.val) (BitVec.ofNat 32 b.val))
          - ∑ t : Fin 64, blockTot (fa t.val) (k t.val) (BitVec.ofNat 32 b.val)) := by
  unfold laneGap
  rw [← SpecLaws_sum_first15 (fun b => absE ((∑ t : Fin 64, blockTot (fc t.val) (k t.val) (BitVec.ofNat 32 b))
          - ∑ t : Fin 64, blockTot (fa t.val) (k t.val) (BitVec.ofNat 32 b)))]
  refine Finset.sum_congr rfl fun l _ => ?_
  rw [SpecLaws_rowAfter_lane, SpecLaws_rowAfter_lane]
  by_cases h : l.val < 15
  · rw [if_pos h, if_pos h, if_pos h]
    show absE ((∑ t ∈ Finset.range 64, blockTot (fc t) (k t) (BitVec.ofNat 32 l.val))
      - ∑ t ∈ Finset.range 64, blockTot (fa t) (k t) (BitVec.ofNat 32 l.val)) = _
    rw [Finset.sum_range (fun t => blockTot (fc t) (k t) (BitVec.ofNat 32 l.val)),
      Finset.sum_range (fun t => blockTot (fa t) (k t) (BitVec.ofNat 32 l.val))]
  · -- both lanes are zero, and |0 - 0| = 0
    rw [if_neg h, if_neg h, if_neg h]
    unfold absE
    rw [sub_zero, neg_zero, max_self]

/-- The coordinate of a flat index is below the array's length. -/
private theorem SpecLaws_idx1_lt {n : ℕ} (j : (⟨1, ![n]⟩ : Shape).Idx) : (j 0).val < n := (j 0).isLt

/-- Block, row and lane against sample number: (t, r, l) ↦ 128 · (2048 · t + r) + l is a bijection from
    64 × 2048 × 128 onto the 16,777,216 samples; its inverse takes the quotient by 262,144, the quotient by 128
    reduced modulo 2048, and the remainder modulo 128. -/
private def SpecLaws_tile : Fin 64 × Fin 2048 × Fin 128 ≃ SFlat.Idx where
  toFun p := ix1 ⟨128 * (2048 * p.1.val + p.2.1.val) + p.2.2.val, by
    have h0 := p.1.isLt; have h1 := p.2.1.isLt; have h2 := p.2.2.isLt; omega⟩
  invFun j := (⟨(j 0).val / 262144, by have := SpecLaws_idx1_lt j; omega⟩,
    ⟨(j 0).val / 128 % 2048, by omega⟩, ⟨(j 0).val % 128, by omega⟩)
  left_inv p := by
    obtain ⟨t, r, l⟩ := p
    have h0 := t.isLt; have h1 := r.isLt; have h2 := l.isLt
    refine Prod.ext (Fin.ext ?_) (Prod.ext (Fin.ext ?_) (Fin.ext ?_))
    · show (128 * (2048 * t.val + r.val) + l.val) / 262144 = t.val
      omega
    · show (128 * (2048 * t.val + r.val) + l.val) / 128 % 2048 = r.val
      omega
    · show (128 * (2048 * t.val + r.val) + l.val) % 128 = l.val
      omega
  right_inv j := by
    refine (congrArg ix1 (Fin.ext ?_)).trans (eq_ix1 j).symm
    show 128 * (2048 * ((j 0).val / 262144) + (j 0).val / 128 % 2048) + (j 0).val % 128 = (j 0).val
    omega

/-- The blocks tile the samples: the per-block totals for a bin add up to the total over the samples of that bin. -/
theorem sum_blocks_eq_binTot (f : SFlat.Idx → EReal) (k : SFlat.Idx → BitVec 32) (b : BitVec 32) :
    ∑ t : Fin 64, blockTot (blkOf f t.val t.isLt) (blkOf k t.val t.isLt) b = binTot f k b := by
  unfold binTot
  rw [Finset.sum_filter, ← Equiv.sum_comp SpecLaws_tile (fun j => if k j = b then f j else 0),
    Fintype.sum_prod_type]
  refine Finset.sum_congr rfl fun t _ => ?_
  rw [Fintype.sum_prod_type]
  unfold blockTot
  exact Finset.sum_congr rfl fun r _ => Finset.sum_congr rfl fun l _ => rfl

end Cert.Calib

end
-- ==== Proof.KPoint.lean ====
/-
  The kernel's three per-block vectors — weighted confidence, weighted accuracy, bin — read at an index: each entry
  is the scalar function of Spec.lean of the block's entries there.
-/
import proofs.«140573_j48258252538340_1_alg».proof.Proof.Spec
import proofs.«140573_j48258252538340_1_alg».proof.Proof.SpecLaws
import proofs.«140573_j48258252538340_1_alg».proof.Proof.Gen.KernelIdeal.Skeleton
import Idealize.ShloMosaic.Lib.Pipeline.Value

noncomputable section

namespace Cert.KernelIdeal.Hand

open Idealize.ShloMosaic Idealize.ShloMosaic.ValueIdx Cert.KernelIdeal Cert.KernelIdeal.Gen Cert.Calib

/-- The block's weighted confidences, from its alpha block `x1` and beta block `x2`. -/
abbrev cwV (x1 x2 : Vec Ideal S2048x128 .f32) : FVec Ideal S2048x128 .f32 :=
  k0_pay10 (k0_pay4 x1 x2) (k0_pay6 x1 x2)
/-- The block's weighted accuracies, from its gamma block `x0`, target block `x3`, and the weight from `x1`, `x2`. -/
abbrev awV (x0 x1 x2 x3 : Vec Ideal S2048x128 .f32) : FVec Ideal S2048x128 .f32 :=
  k0_pay11 (k0_pay5 x0 x3) (k0_pay6 x1 x2)
/-- The block's bins. -/
abbrev binV (x1 x2 : Vec Ideal S2048x128 .f32) : IVec S2048x128 32 :=
  k0_pay8 (k0_pay7 x1 x2)

/-- The confidence vector at an index: 1 / (1 + beta / ((alpha - 1) + eps)), entry by entry. -/
private theorem KPoint_conf (x1 x2 : Vec Ideal S2048x128 .f32) (i : S2048x128.Idx) :
    k0_pay4 (F := Ideal) x1 x2 i = confS (x1 i) (x2 i) := by
  simp only [k0_pay4, shapeCast_self]
  rfl

/-- The accuracy vector at an index: 1 - min 1 (max 0 (|target - gamma| / 2)), entry by entry. -/
private theorem KPoint_acc (x0 x3 : Vec Ideal S2048x128 .f32) (i : S2048x128.Idx) :
    k0_pay5 (F := Ideal) x0 x3 i = accS (x0 i) (x3 i) := by
  simp only [k0_pay5, shapeCast_self]
  rfl

/-- The validity bit at an index: both comparisons of the confidence, joined by "and". -/
private theorem KPoint_valid (x1 x2 : Vec Ideal S2048x128 .f32) (i : S2048x128.Idx) :
    k0_pay6 (F := Ideal) x1 x2 i = validS (x1 i) (x2 i) := by
  simp only [k0_pay6, validS, ← KPoint_conf]
  rfl

/-- The weight at an index: the bit widened to a word and read signed is the bit's own value 0 or 1. -/
private theorem KPoint_weight (v : IVec S2048x128 1) (i : S2048x128.Idx) :
    k0_pay9 (F := Ideal) v i = (((v i).toNat : ℝ) : EReal) := by
  simp only [k0_pay9]
  exact coe_toInt_setWidth_one (v i)

theorem cwV_eq (x1 x2 : Vec Ideal S2048x128 .f32) : cwV x1 x2 = fun i => cwS (x1 i) (x2 i) := by
  funext i
  show k0_pay4 (F := Ideal) x1 x2 i * k0_pay9 (F := Ideal) (k0_pay6 x1 x2) i = cwS (x1 i) (x2 i)
  rw [KPoint_conf, KPoint_weight, KPoint_valid]
  rfl

theorem awV_eq (x0 x1 x2 x3 : Vec Ideal S2048x128 .f32) :
    awV x0 x1 x2 x3 = fun i => awS (x0 i) (x3 i) (x1 i) (x2 i) := by
  funext i
  show k0_pay5 (F := Ideal) x0 x3 i * k0_pay9 (F := Ideal) (k0_pay6 x1 x2) i = awS (x0 i) (x3 i) (x1 i) (x2 i)
  rw [KPoint_acc, KPoint_weight, KPoint_valid]
  rfl

theorem binV_eq (x1 x2 : Vec Ideal S2048x128 .f32) : binV x1 x2 = fun i => binS (x1 i) (x2 i) := by
  funext i
  simp only [binV, k0_pay8, k0_pay7, binS, ← KPoint_conf]
  rfl

end Cert.KernelIdeal.Hand

end
-- ==== Proof.KLane.lean ====
/-
  One lane's update: the block's entries times the 0/1 mask of one bin, summed over lanes, then over rows, added to the
  lane's old value. Each of the thirty values the kernel stores into its two carried rows is this one term at its bin;
  read on the extended reals it is the old value plus the block's total for the bin. The final value is the sum over the
  128 lanes of the absolute difference of the two rows; the rows start at zero.
-/
import proofs.«140573_j48258252538340_1_alg».proof.Proof.KPoint
import Idealize.ShloMosaic.Lib.ValueLayout

noncomputable section

namespace Cert.KernelIdeal.Hand

open Idealize.ShloMosaic Idealize.ShloMosaic.ValueIdx Cert.KernelIdeal Cert.KernelIdeal.Gen Cert.Calib

/-- The value stored into lane `b` of a carried row: the lane's old value plus the masked block, summed. -/
def laneUpd (old : Vec Ideal S1x1 .f32) (v : FVec Ideal S2048x128 .f32) (bin : IVec S2048x128 32) (b : BitVec 32) :
    FVec Ideal S1x1 .f32 :=
  shapeCast S1x1 (addf old (shapeCast S1x1 (multiReduction .add [0] S1 (shapeCast S2048x1
    (multiReduction .add [1] S2048 (mulf v (sitofp .f32 (extui 32 (cmpi .eq bin (broadcast S2048x128 b)) natLt_1_32)))
      0x00000000#32 reduces_S2048x128_S2048 (.inl rfl) rfl) shapeCasts_S2048_S2048x1)
    0x00000000#32 reduces_S2048x1_S1 (.inl rfl) rfl) shapeCasts_S1_S1x1)) shapeCasts_S1x1_S1x1

/-- On the extended reals: the old value plus the block's total for the bin. -/
theorem laneUpd_apply (old : Vec Ideal S1x1 .f32) (v : FVec Ideal S2048x128 .f32) (bin : IVec S2048x128 32) (b : BitVec 32)
    (x : S1x1.Idx) : laneUpd old v bin b x = old x + blockTot v bin b := by
  unfold laneUpd
  -- the outer cast is the identity, and the addition is pointwise: it remains to read the double sum
  refine (congrFun (shapeCast_self _ shapeCasts_S1x1_S1x1) x).trans ?_
  refine congrArg (old x + ·) ?_
  refine (shapeCast_addUnit_apply ![1] _ shapeCasts_S1_S1x1 x).trans ?_
  refine (Ideal.multiReduction_add_single _ 0x00000000#32 reduces_S2048x1_S1 (.inl rfl) rfl _).trans ?_
  unfold blockTot
  -- the sum over the 2048 rows, row by row: the column entry of row r is the sum over the 128 lanes of row r
  refine Finset.sum_congr rfl fun r _ => ?_
  refine (shapeCast_apply _ shapeCasts_S2048_S2048x1 _ (ix1 (r : Fin 2048)) ?_).trans ?_
  · rw [Shape.rowMajor_val_one, Shape.rowMajor_val_two]
    have h1 : (reduces_S2048x1_S1.lift (fun a => x a.succ) r ⟨1, by decide⟩).val < 1 := Fin.isLt _
    show r.val = r.val * 1 + (reduces_S2048x1_S1.lift (fun a => x a.succ) r ⟨1, by decide⟩).val
    omega
  refine (Ideal.multiReduction_add_single _ 0x00000000#32 reduces_S2048x128_S2048 (.inl rfl) rfl
    (ix1 (r : Fin 2048))).trans ?_
  refine Finset.sum_congr rfl fun l _ => ?_
  have hi : reduces_S2048x128_S2048.lift (ix1 (r : Fin 2048)) l = ix2 (r : Fin 2048) l := by
    funext a
    match a with
    | ⟨0, _⟩ => rfl
    | ⟨1, _⟩ => rfl
  rw [hi]
  -- an entry times the 0/1 value of the test "its bin is b" is the entry kept for bin b, zero otherwise
  exact mul_mask _ _ _

/-! The fifteen values stored into the first row (confidences) and the fifteen into the second (accuracies). -/
theorem payC_0 (x1 x2 : Vec Ideal S2048x128 .f32) (old : Vec Ideal S1x1 .f32) :
    k0_pay13 (k0_pay4 x1 x2) (k0_pay6 x1 x2) (k0_pay7 x1 x2) old = laneUpd old (cwV x1 x2) (binV x1 x2) 0#32 := by
  rfl
theorem payC_1 (x1 x2 : Vec Ideal S2048x128 .f32) (old : Vec Ideal S1x1 .f32) :
    k0_pay17 (k0_pay16 (k0_pay4 x1 x2) (k0_pay6 x1 x2) (k0_pay7 x1 x2)) old = laneUpd old (cwV x1 x2) (binV x1 x2) 1#32 := by
  rfl
theorem payC_2 (x1 x2 : Vec Ideal S2048x128 .f32) (old : Vec Ideal S1x1 .f32) :
    k0_pay21 (k0_pay8 (k0_pay7 x1 x2)) (k0_pay10 (k0_pay4 x1 x2) (k0_pay6 x1 x2)) old = laneUpd old (cwV x1 x2) (binV x1 x2) 2#32 := by
  rfl
theorem payC_3 (x1 x2 : Vec Ideal S2048x128 .f32) (old : Vec Ideal S1x1 .f32) :
    k0_pay24 (k0_pay8 (k0_pay7 x1 x2)) (k0_pay10 (k0_pay4 x1 x2) (k0_pay6 x1 x2)) old = laneUpd old (cwV x1 x2) (binV x1 x2) 3#32 := by
  rfl
theorem payC_4 (x1 x2 : Vec Ideal S2048x128 .f32) (old : Vec Ideal S1x1 .f32) :
    k0_pay28 (k0_pay27 (k0_pay8 (k0_pay7 x1 x2)) (k0_pay10 (k0_pay4 x1 x2) (k0_pay6 x1 x2))) old = laneUpd old (cwV x1 x2) (binV x1 x2) 4#32 := by
  rfl
theorem payC_5 (x1 x2 : Vec Ideal S2048x128 .f32) (old : Vec Ideal S1x1 .f32) :
    k0_pay31 (k0_pay8 (k0_pay7 x1 x2)) (k0_pay10 (k0_pay4 x1 x2) (k0_pay6 x1 x2)) old = laneUpd old (cwV x1 x2) (binV x1 x2) 5#32 := by
  rfl
theorem payC_6 (x1 x2 : Vec Ideal S2048x128 .f32) (old : Vec Ideal S1x1 .f32) :
    k0_pay35 (k0_pay8 (k0_pay7 x1 x2)) (k0_pay10 (k0_pay4 x1 x2) (k0_pay6 x1 x2)) old = laneUpd old (cwV x1 x2) (binV x1 x2) 6#32 := by
  rfl
theorem payC_7 (x1 x2 : Vec Ideal S2048x128 .f32) (old : Vec Ideal S1x1 .f32) :
    k0_pay40 (k0_pay38 (k0_pay8 (k0_pay7 x1 x2)) (k0_pay10 (k0_pay4 x1 x2) (k0_pay6 x1 x2))) old = laneUpd old (cwV x1 x2) (binV x1 x2) 7#32 := by
  rfl
theorem payC_8 (x1 x2 : Vec Ideal S2048x128 .f32) (old : Vec Ideal S1x1 .f32) :
    k0_pay43 (k0_pay8 (k0_pay7 x1 x2)) (k0_pay10 (k0_pay4 x1 x2) (k0_pay6 x1 x2)) old = laneUpd old (cwV x1 x2) (binV x1 x2) 8#32 := by
  rfl
theorem payC_9 (x1 x2 : Vec Ideal S2048x128 .f32) (old : Vec Ideal S1x1 .f32) :
    k0_pay47 (k0_pay8 (k0_pay7 x1 x2)) (k0_pay10 (k0_pay4 x1 x2) (k0_pay6 x1 x2)) old = laneUpd old (cwV x1 x2) (binV x1 x2) 9#32 := by
  rfl
theorem payC_10 (x1 x2 : Vec Ideal S2048x128 .f32) (old : Vec Ideal S1x1 .f32) :
    k0_pay52 (k0_pay50 (k0_pay8 (k0_pay7 x1 x2)) (k0_pay10 (k0_pay4 x1 x2) (k0_pay6 x1 x2))) old = laneUpd old (cwV x1 x2) (binV x1 x2) 10#32 := by
  rfl
theorem payC_11 (x1 x2 : Vec Ideal S2048x128 .f32) (old : Vec Ideal S1x1 .f32) :
    k0_pay55 (k0_pay8 (k0_pay7 x1 x2)) (k0_pay10 (k0_pay4 x1 x2) (k0_pay6 x1 x2)) old = laneUpd old (cwV x1 x2) (binV x1 x2) 11#32 := by
  rfl
theorem payC_12 (x1 x2 : Vec Ideal S2048x128 .f32) (old : Vec Ideal S1x1 .f32) :
    k0_pay58 (k0_pay8 (k0_pay7 x1 x2)) (k0_pay10 (k0_pay4 x1 x2) (k0_pay6 x1 x2)) old = laneUpd old (cwV x1 x2) (binV x1 x2) 12#32 := by
  rfl
theorem payC_13 (x1 x2 : Vec Ideal S2048x128 .f32) (old : Vec Ideal S1x1 .f32) :
    k0_pay63 (k0_pay61 (k0_pay8 (k0_pay7 x1 x2)) (k0_pay10 (k0_pay4 x1 x2) (k0_pay6 x1 x2))) old = laneUpd old (cwV x1 x2) (binV x1 x2) 13#32 := by
  rfl
theorem payC_14 (x1 x2 : Vec Ideal S2048x128 .f32) (old : Vec Ideal S1x1 .f32) :
    k0_pay66 (k0_pay8 (k0_pay7 x1 x2)) (k0_pay10 (k0_pay4 x1 x2) (k0_pay6 x1 x2)) old = laneUpd old (cwV x1 x2) (binV x1 x2) 14#32 := by
  rfl

theorem payA_0 (x0 x1 x2 x3 : Vec Ideal S2048x128 .f32) (old : Vec Ideal S1x1 .f32) :
    k0_pay14 (k0_pay5 x0 x3) (k0_pay6 x1 x2) (k0_pay7 x1 x2) old = laneUpd old (awV x0 x1 x2 x3) (binV x1 x2) 0#32 := by
  rfl
theorem payA_1 (x0 x1 x2 x3 : Vec Ideal S2048x128 .f32) (old : Vec Ideal S1x1 .f32) :
    k0_pay18 (k0_pay11 (k0_pay5 x0 x3) (k0_pay6 x1 x2)) (k0_pay15 (k0_pay7 x1 x2)) old = laneUpd old (awV x0 x1 x2 x3) (binV x1 x2) 1#32 := by
  rfl
theorem payA_2 (x0 x1 x2 x3 : Vec Ideal S2048x128 .f32) (old : Vec Ideal S1x1 .f32) :
    k0_pay22 (k0_pay20 (k0_pay8 (k0_pay7 x1 x2)) (k0_pay11 (k0_pay5 x0 x3) (k0_pay6 x1 x2))) old = laneUpd old (awV x0 x1 x2 x3) (binV x1 x2) 2#32 := by
  rfl
theorem payA_3 (x0 x1 x2 x3 : Vec Ideal S2048x128 .f32) (old : Vec Ideal S1x1 .f32) :
    k0_pay25 (k0_pay8 (k0_pay7 x1 x2)) (k0_pay11 (k0_pay5 x0 x3) (k0_pay6 x1 x2)) old = laneUpd old (awV x0 x1 x2 x3) (binV x1 x2) 3#32 := by
  rfl
theorem payA_4 (x0 x1 x2 x3 : Vec Ideal S2048x128 .f32) (old : Vec Ideal S1x1 .f32) :
    k0_pay29 (k0_pay11 (k0_pay5 x0 x3) (k0_pay6 x1 x2)) (k0_pay26 (k0_pay8 (k0_pay7 x1 x2))) old = laneUpd old (awV x0 x1 x2 x3) (binV x1 x2) 4#32 := by
  rfl
theorem payA_5 (x0 x1 x2 x3 : Vec Ideal S2048x128 .f32) (old : Vec Ideal S1x1 .f32) :
    k0_pay33 (k0_pay32 (k0_pay8 (k0_pay7 x1 x2)) (k0_pay11 (k0_pay5 x0 x3) (k0_pay6 x1 x2)) old) = laneUpd old (awV x0 x1 x2 x3) (binV x1 x2) 5#32 := by
  rfl
theorem payA_6 (x0 x1 x2 x3 : Vec Ideal S2048x128 .f32) (old : Vec Ideal S1x1 .f32) :
    k0_pay36 (k0_pay8 (k0_pay7 x1 x2)) (k0_pay11 (k0_pay5 x0 x3) (k0_pay6 x1 x2)) old = laneUpd old (awV x0 x1 x2 x3) (binV x1 x2) 6#32 := by
  rfl
theorem payA_7 (x0 x1 x2 x3 : Vec Ideal S2048x128 .f32) (old : Vec Ideal S1x1 .f32) :
    k0_pay41 (k0_pay39 (k0_pay8 (k0_pay7 x1 x2)) (k0_pay11 (k0_pay5 x0 x3) (k0_pay6 x1 x2))) old = laneUpd old (awV x0 x1 x2 x3) (binV x1 x2) 7#32 := by
  rfl
theorem payA_8 (x0 x1 x2 x3 : Vec Ideal S2048x128 .f32) (old : Vec Ideal S1x1 .f32) :
    k0_pay45 (k0_pay44 (k0_pay8 (k0_pay7 x1 x2)) (k0_pay11 (k0_pay5 x0 x3) (k0_pay6 x1 x2)) old) = laneUpd old (awV x0 x1 x2 x3) (binV x1 x2) 8#32 := by
  rfl
theorem payA_9 (x0 x1 x2 x3 : Vec Ideal S2048x128 .f32) (old : Vec Ideal S1x1 .f32) :
    k0_pay48 (k0_pay8 (k0_pay7 x1 x2)) (k0_pay11 (k0_pay5 x0 x3) (k0_pay6 x1 x2)) old = laneUpd old (awV x0 x1 x2 x3) (binV x1 x2) 9#32 := by
  rfl
theorem payA_10 (x0 x1 x2 x3 : Vec Ideal S2048x128 .f32) (old : Vec Ideal S1x1 .f32) :
    k0_pay53 (k0_pay51 (k0_pay8 (k0_pay7 x1 x2)) (k0_pay11 (k0_pay5 x0 x3) (k0_pay6 x1 x2))) old = laneUpd old (awV x0 x1 x2 x3) (binV x1 x2) 10#32 := by
  rfl
theorem payA_11 (x0 x1 x2 x3 : Vec Ideal S2048x128 .f32) (old : Vec Ideal S1x1 .f32) :
    k0_pay56 (k0_pay8 (k0_pay7 x1 x2)) (k0_pay11 (k0_pay5 x0 x3) (k0_pay6 x1 x2)) old = laneUpd old (awV x0 x1 x2 x3) (binV x1 x2) 11#32 := by
  rfl
theorem payA_12 (x0 x1 x2 x3 : Vec Ideal S2048x128 .f32) (old : Vec Ideal S1x1 .f32) :
    k0_pay59 (k0_pay8 (k0_pay7 x1 x2)) (k0_pay11 (k0_pay5 x0 x3) (k0_pay6 x1 x2)) old = laneUpd old (awV x0 x1 x2 x3) (binV x1 x2) 12#32 := by
  rfl
theorem payA_13 (x0 x1 x2 x3 : Vec Ideal S2048x128 .f32) (old : Vec Ideal S1x1 .f32) :
    k0_pay64 (k0_pay62 (k0_pay8 (k0_pay7 x1 x2)) (k0_pay11 (k0_pay5 x0 x3) (k0_pay6 x1 x2))) old = laneUpd old (awV x0 x1 x2 x3) (binV x1 x2) 13#32 := by
  rfl
theorem payA_14 (x0 x1 x2 x3 : Vec Ideal S2048x128 .f32) (old : Vec Ideal S1x1 .f32) :
    k0_pay67 (k0_pay8 (k0_pay7 x1 x2)) (k0_pay11 (k0_pay5 x0 x3) (k0_pay6 x1 x2)) old = laneUpd old (awV x0 x1 x2 x3) (binV x1 x2) 14#32 := by
  rfl

/-- The value stored into the output: the sum over the 128 lanes of the absolute difference of the two rows. -/
theorem gap_apply (p q : Vec Ideal S1x128 .f32) (x : S1x1.Idx) : k0_pay1 p q x = laneGap p q := by
  show shapeCast S1x1 (multiReduction .add [1] S1 (absf (subf (F := Ideal) (φ := .f32) p q)) 0x00000000#32
    reduces_S1x128_S1 (.inl rfl) rfl) shapeCasts_S1_S1x1 x = _
  refine (shapeCast_addUnit_apply ![1] _ shapeCasts_S1_S1x1 x).trans ?_
  refine (Ideal.multiReduction_add_single (absf (subf (F := Ideal) (φ := .f32) p q)) 0x00000000#32
    reduces_S1x128_S1 (.inl rfl) rfl _).trans ?_
  unfold laneGap
  refine Finset.sum_congr rfl fun l _ => ?_
  have hi : reduces_S1x128_S1.lift (fun a => x a.succ) l = ix2 (0 : Fin 1) l := by
    funext a
    match a with
    | ⟨0, _⟩ =>
      have h1 : (reduces_S1x128_S1.lift (fun a => x a.succ) l ⟨0, by decide⟩).val < 1 := Fin.isLt _
      exact Fin.ext (by show _ = 0; omega)
    | ⟨1, _⟩ => rfl
  rw [hi]
  rfl

/-- The rows are reset to zero. -/
theorem zeroRow0 : (k0_pay2 (F := Ideal)) = fun _ => (0 : EReal) := by
  show shapeCast S1x128 (broadcast S1x128 (Scalar.ofBits .f32 0x00000000#32)) shapeCasts_S1x128_S1x128 = _
  rw [shapeCast_self]
  funext i
  exact Ideal.ofBits_zero_f32
theorem zeroRow1 : (k0_pay3 (F := Ideal)) = fun _ => (0 : EReal) := by
  show shapeCast S1x128 (broadcast S1x128 (Scalar.ofBits .f32 0x00000000#32)) shapeCasts_S1x128_S1x128 = _
  rw [shapeCast_self]
  funext i
  exact Ideal.ofBits_zero_f32

end Cert.KernelIdeal.Hand

end
-- ==== Proof.KPiecesA.lean ====
/-
  The first grid point: both carried rows are reset to zero and then take the first block's fifteen totals. What the
  point leaves in each row is one step of Spec.lean's carried row from the zero row.

  The point stores the zero row whole, and then, for each bin b = 0 … 14 in turn, reads lane b, adds the block's total
  for bin b and stores the sum back into lane b. By induction on the number of stores made: after the reset and the
  stores into lanes 0 … n - 1 the row holds the block's totals for the bins 0 … n - 1 in those lanes and zero in every
  other lane; so lane n still reads zero when its turn comes, and the value stored there is zero plus the total for
  bin n. After the fifteenth store the row is the zero row with the fifteen totals added into its first fifteen lanes.
-/
import proofs.«140573_j48258252538340_1_alg».proof.Proof.KLane
import proofs.«140573_j48258252538340_1_alg».proof.Proof.Gen.KernelIdeal.Frame
import Idealize.ShloMosaic.Lib.Pipeline.Value
import Idealize.ShloMosaic.Lib.Pipeline.CanonAppend
import Idealize.ShloMosaic.Lib.WritesUnit

set_option maxRecDepth 16384

noncomputable section

namespace Cert.KernelIdeal.Hand

open Idealize.ShloMosaic Idealize.ShloMosaic.ValueIdx Idealize.ShloMosaic.TcCoe Idealize.ShloMosaic.Tactic
open Idealize.SL Idealize.SL.Sem
open Cert.KernelIdeal Cert.KernelIdeal.Gen Cert.Calib

/-- The totals of the first `n` bins in the first `n` lanes of a row, zero in the other lanes. -/
def KPiecesA_part (v : FVec Ideal S2048x128 .f32) (bin : IVec S2048x128 32) (n : ℕ) : S1x128.Idx → EReal :=
  fun y => if (y 1).val < n then blockTot v bin (BitVec.ofNat 32 (y 1).val) else 0

/-- A store of bin `n`'s total into lane `n`, made over a row that holds the first `n` totals, leaves the first `n + 1`. -/
theorem KPiecesA_canon_step (v : FVec Ideal S2048x128 .f32) (bin : IVec S2048x128 32) (n : ℕ)
    (inb : ∀ a, (![0, n] : Fin 2 → ℕ) a + S1x1.size a ≤ S1x128.size a)
    (w : (Rect.unit (s := S1x128) ![0, n] S1x1.size inb).shape.Idx → Elt Ideal .f32)
    (L : List (View.Piece (Elt Ideal) S1x128 .f32))
    (hL : View.canon L = KPiecesA_part v bin n)
    (hw : ∀ x, w x = blockTot v bin (BitVec.ofNat 32 n)) :
    View.canon ((⟨Rect.unit (s := S1x128) ![0, n] S1x1.size inb, w⟩ : View.Piece (Elt Ideal) S1x128 .f32) :: L)
      = KPiecesA_part v bin (n + 1) := by
  funext y
  by_cases hy : (y 1).val = n
  · have hm : y ∈ (Rect.unit (s := S1x128) ![0, n] S1x1.size inb).set := by
      rw [Rect.mem_set_unit]
      refine Fin.forall_fin_two.mpr ⟨?_, ?_⟩
      · have h0 := idx2_lt0 y
        show 0 ≤ (y 0).val ∧ (y 0).val < 0 + 1
        omega
      · show n ≤ (y 1).val ∧ (y 1).val < n + 1
        omega
    obtain ⟨x, rfl⟩ := (Rect.unit (s := S1x128) ![0, n] S1x1.size inb).exists_idx_of_mem hm
    refine (View.canon_cons_emb (Rect.unit (s := S1x128) ![0, n] S1x1.size inb) w L x).trans ?_
    rw [hw x]
    unfold KPiecesA_part
    rw [hy, if_pos (Nat.lt_succ_self n)]
  · have hm : y ∉ (Rect.unit (s := S1x128) ![0, n] S1x1.size inb).set := by
      rw [Rect.mem_set_unit]
      intro h
      have h1 : n ≤ (y 1).val ∧ (y 1).val < n + 1 := h 1
      omega
    refine (View.canon_cons_of_not_mem
      (⟨Rect.unit (s := S1x128) ![0, n] S1x1.size inb, w⟩ : View.Piece (Elt Ideal) S1x128 .f32) L hm).trans ?_
    rw [hL]
    unfold KPiecesA_part
    by_cases h1 : (y 1).val < n
    · rw [if_pos h1, if_pos (by omega)]
    · rw [if_neg h1, if_neg (by omega)]

/-- Lane `n` of a row that holds only the first `n` totals reads zero. -/
theorem KPiecesA_old_zero (v : FVec Ideal S2048x128 .f32) (bin : IVec S2048x128 32) (n : ℕ)
    (inb : ∀ a, (![0, n] : Fin 2 → ℕ) a + S1x1.size a ≤ S1x128.size a)
    (a : Memref sig .tc .vmem S1x128 .f32)
    (L : List (View.Piece (Elt Ideal) S1x128 .f32))
    (hL : View.canon L = KPiecesA_part v bin n) :
    a.view.readCov L (Rect.unit (s := S1x128) ![0, n] S1x1.size inb).toLoadRect = fun _ => (0 : EReal) := by
  rw [View.readCov_eq_canon', hL]
  funext j
  unfold KPiecesA_part
  refine if_neg ?_
  show ¬ (n + 1 * (j 1).val < n)
  omega

/-- The row reset to zero holds none of the totals. -/
theorem KPiecesA_canon_zero (v : FVec Ideal S2048x128 .f32) (bin : IVec S2048x128 32)
    (w : S1x128.Idx → Elt Ideal .f32) (hw : w = fun _ => (0 : EReal)) :
    View.canon [(⟨Rect.unit (s := S1x128) ![0, 0] S1x128.size inb_S1x128_S1x128_0_0, w⟩ : View.Piece (Elt Ideal) S1x128 .f32)]
      = KPiecesA_part v bin 0 := by
  rw [View.canon_unit_zero (by funext a; fin_cases a <;> rfl) inb_S1x128_S1x128_0_0 w, hw]
  funext y
  unfold KPiecesA_part
  rw [if_neg (Nat.not_lt_zero _)]

/-- A whole input block loaded through the whole rectangle is the block. -/
theorem KPiecesA_load_whole (a : Memref sig .tc .vmem S2048x128 .f32) (ha : a.IsWhole) (x : Vec Ideal S2048x128 .f32) :
    View.readAt (Elt Ideal) a.view (Rect.unit ![0, 0] S2048x128.size inb_S2048x128_S2048x128_0_0).toLoadRect (ha.unread x) = x := by
  rw [View.readAt_eq_ld, ha.read_unread]
  exact View.ld_unit_zero (by funext a; fin_cases a <;> rfl) inb_S2048x128_S2048x128_0_0 x

/-- One step of the carried row from the zero row is the fifteen totals in the first fifteen lanes. -/
theorem KPiecesA_part_fifteen (v : FVec Ideal S2048x128 .f32) (bin : IVec S2048x128 32) :
    KPiecesA_part v bin 15 = rowStep v bin (fun _ => 0) := by
  funext y
  unfold KPiecesA_part rowStep
  by_cases h : (y 1).val < 15
  · rw [if_pos h, if_pos h, zero_add]
  · rw [if_neg h, if_neg h]

/-! The values the point computes once from its four input blocks and uses in several lanes, in closed form. -/
theorem KPiecesA_r (c : Dev nD) (arg2 : Memref sig .tc .vmem S2048x128 .f32) (harg2 : arg2.IsWhole) (arg3 : Memref sig .tc .vmem S2048x128 .f32) (harg3 : arg3.IsWhole) (x1 x2 : Vec Ideal S2048x128 .f32) :
    kernelRun0_A.sl.r (F := Ideal) c arg2 harg2 arg3 harg3 x1 x2 = k0_pay4 x1 x2 := by
  unfold kernelRun0_A.sl.r
  rw [KPiecesA_load_whole, KPiecesA_load_whole]

theorem KPiecesA_r_1 (c : Dev nD) (arg1 : Memref sig .tc .vmem S2048x128 .f32) (harg1 : arg1.IsWhole) (arg4 : Memref sig .tc .vmem S2048x128 .f32) (harg4 : arg4.IsWhole) (x0 x3 : Vec Ideal S2048x128 .f32) :
    kernelRun0_A.sl.r_1 (F := Ideal) c arg1 harg1 arg4 harg4 x0 x3 = k0_pay5 x0 x3 := by
  unfold kernelRun0_A.sl.r_1
  rw [KPiecesA_load_whole, KPiecesA_load_whole]

theorem KPiecesA_r_2 (c : Dev nD) (arg2 : Memref sig .tc .vmem S2048x128 .f32) (harg2 : arg2.IsWhole) (arg3 : Memref sig .tc .vmem S2048x128 .f32) (harg3 : arg3.IsWhole) (x1 x2 : Vec Ideal S2048x128 .f32) :
    kernelRun0_A.sl.r_2 (F := Ideal) c arg2 harg2 arg3 harg3 x1 x2 = k0_pay6 x1 x2 := by
  unfold kernelRun0_A.sl.r_2
  rw [KPiecesA_load_whole, KPiecesA_load_whole]

theorem KPiecesA_r_3 (c : Dev nD) (arg2 : Memref sig .tc .vmem S2048x128 .f32) (harg2 : arg2.IsWhole) (arg3 : Memref sig .tc .vmem S2048x128 .f32) (harg3 : arg3.IsWhole) (x1 x2 : Vec Ideal S2048x128 .f32) :
    kernelRun0_A.sl.r_3 (F := Ideal) c arg2 harg2 arg3 harg3 x1 x2 = k0_pay7 x1 x2 := by
  unfold kernelRun0_A.sl.r_3
  rw [KPiecesA_load_whole, KPiecesA_load_whole]

theorem KPiecesA_r_4 (c : Dev nD) (arg2 : Memref sig .tc .vmem S2048x128 .f32) (harg2 : arg2.IsWhole) (arg3 : Memref sig .tc .vmem S2048x128 .f32) (harg3 : arg3.IsWhole) (x1 x2 : Vec Ideal S2048x128 .f32) :
    kernelRun0_A.sl.r_4 (F := Ideal) c arg2 harg2 arg3 harg3 x1 x2 = k0_pay8 (k0_pay7 x1 x2) := by
  unfold kernelRun0_A.sl.r_4
  rw [KPiecesA_r_3]

theorem KPiecesA_r_5 (c : Dev nD) (arg2 : Memref sig .tc .vmem S2048x128 .f32) (harg2 : arg2.IsWhole) (arg3 : Memref sig .tc .vmem S2048x128 .f32) (harg3 : arg3.IsWhole) (x1 x2 : Vec Ideal S2048x128 .f32) :
    kernelRun0_A.sl.r_5 (F := Ideal) c arg2 harg2 arg3 harg3 x1 x2 = k0_pay10 (k0_pay4 x1 x2) (k0_pay6 x1 x2) := by
  unfold kernelRun0_A.sl.r_5
  rw [KPiecesA_r, KPiecesA_r_2]

theorem KPiecesA_r_6 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (x0 x1 x2 x3 : Vec Ideal S2048x128 .f32) :
    kernelRun0_A.sl.r_6 (F := Ideal) c arg1 harg1 arg2 harg2 arg3 harg3 arg4 harg4 x0 x1 x2 x3 = k0_pay11 (k0_pay5 x0 x3) (k0_pay6 x1 x2) := by
  unfold kernelRun0_A.sl.r_6
  rw [KPiecesA_r_1, KPiecesA_r_2]

theorem KPiecesA_r_7 (c : Dev nD) (arg2 : Memref sig .tc .vmem S2048x128 .f32) (harg2 : arg2.IsWhole) (arg3 : Memref sig .tc .vmem S2048x128 .f32) (harg3 : arg3.IsWhole) (x1 x2 : Vec Ideal S2048x128 .f32) :
    kernelRun0_A.sl.r_7 (F := Ideal) c arg2 harg2 arg3 harg3 x1 x2 = k0_pay15 (k0_pay7 x1 x2) := by
  unfold kernelRun0_A.sl.r_7
  rw [KPiecesA_r_3]

theorem KPiecesA_r_8 (c : Dev nD) (arg2 : Memref sig .tc .vmem S2048x128 .f32) (harg2 : arg2.IsWhole) (arg3 : Memref sig .tc .vmem S2048x128 .f32) (harg3 : arg3.IsWhole) (x1 x2 : Vec Ideal S2048x128 .f32) :
    kernelRun0_A.sl.r_8 (F := Ideal) c arg2 harg2 arg3 harg3 x1 x2 = k0_pay16 (k0_pay4 x1 x2) (k0_pay6 x1 x2) (k0_pay7 x1 x2) := by
  unfold kernelRun0_A.sl.r_8
  rw [KPiecesA_r, KPiecesA_r_2, KPiecesA_r_3]

theorem KPiecesA_r_9 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (x0 x1 x2 x3 : Vec Ideal S2048x128 .f32) :
    kernelRun0_A.sl.r_9 (F := Ideal) c arg1 harg1 arg2 harg2 arg3 harg3 arg4 harg4 x0 x1 x2 x3 = k0_pay20 (k0_pay8 (k0_pay7 x1 x2)) (k0_pay11 (k0_pay5 x0 x3) (k0_pay6 x1 x2)) := by
  unfold kernelRun0_A.sl.r_9
  rw [KPiecesA_r_4, KPiecesA_r_6]

theorem KPiecesA_r_10 (c : Dev nD) (arg2 : Memref sig .tc .vmem S2048x128 .f32) (harg2 : arg2.IsWhole) (arg3 : Memref sig .tc .vmem S2048x128 .f32) (harg3 : arg3.IsWhole) (x1 x2 : Vec Ideal S2048x128 .f32) :
    kernelRun0_A.sl.r_10 (F := Ideal) c arg2 harg2 arg3 harg3 x1 x2 = k0_pay26 (k0_pay8 (k0_pay7 x1 x2)) := by
  unfold kernelRun0_A.sl.r_10
  rw [KPiecesA_r_4]

theorem KPiecesA_r_11 (c : Dev nD) (arg2 : Memref sig .tc .vmem S2048x128 .f32) (harg2 : arg2.IsWhole) (arg3 : Memref sig .tc .vmem S2048x128 .f32) (harg3 : arg3.IsWhole) (x1 x2 : Vec Ideal S2048x128 .f32) :
    kernelRun0_A.sl.r_11 (F := Ideal) c arg2 harg2 arg3 harg3 x1 x2 = k0_pay27 (k0_pay8 (k0_pay7 x1 x2)) (k0_pay10 (k0_pay4 x1 x2) (k0_pay6 x1 x2)) := by
  unfold kernelRun0_A.sl.r_11
  rw [KPiecesA_r_4, KPiecesA_r_5]

theorem KPiecesA_r_12 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg7 : Memref sig .tc .vmem S1x128 .f32) (x0 x1 x2 x3 : Vec Ideal S2048x128 .f32) :
    kernelRun0_A.sl.r_12 (F := Ideal) c arg1 harg1 arg2 harg2 arg3 harg3 arg4 harg4 arg7 x0 x1 x2 x3 = k0_pay32 (k0_pay8 (k0_pay7 x1 x2)) (k0_pay11 (k0_pay5 x0 x3) (k0_pay6 x1 x2)) (kernelRun0_A.sl.v186 c arg1 harg1 arg2 harg2 arg3 harg3 arg4 harg4 arg7 x0 x1 x2 x3) := by
  unfold kernelRun0_A.sl.r_12
  rw [KPiecesA_r_4, KPiecesA_r_6]

theorem KPiecesA_r_13 (c : Dev nD) (arg2 : Memref sig .tc .vmem S2048x128 .f32) (harg2 : arg2.IsWhole) (arg3 : Memref sig .tc .vmem S2048x128 .f32) (harg3 : arg3.IsWhole) (x1 x2 : Vec Ideal S2048x128 .f32) :
    kernelRun0_A.sl.r_13 (F := Ideal) c arg2 harg2 arg3 harg3 x1 x2 = k0_pay38 (k0_pay8 (k0_pay7 x1 x2)) (k0_pay10 (k0_pay4 x1 x2) (k0_pay6 x1 x2)) := by
  unfold kernelRun0_A.sl.r_13
  rw [KPiecesA_r_4, KPiecesA_r_5]

theorem KPiecesA_r_14 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (x0 x1 x2 x3 : Vec Ideal S2048x128 .f32) :
    kernelRun0_A.sl.r_14 (F := Ideal) c arg1 harg1 arg2 harg2 arg3 harg3 arg4 harg4 x0 x1 x2 x3 = k0_pay39 (k0_pay8 (k0_pay7 x1 x2)) (k0_pay11 (k0_pay5 x0 x3) (k0_pay6 x1 x2)) := by
  unfold kernelRun0_A.sl.r_14
  rw [KPiecesA_r_4, KPiecesA_r_6]

theorem KPiecesA_r_15 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg7 : Memref sig .tc .vmem S1x128 .f32) (x0 x1 x2 x3 : Vec Ideal S2048x128 .f32) :
    kernelRun0_A.sl.r_15 (F := Ideal) c arg1 harg1 arg2 harg2 arg3 harg3 arg4 harg4 arg7 x0 x1 x2 x3 = k0_pay44 (k0_pay8 (k0_pay7 x1 x2)) (k0_pay11 (k0_pay5 x0 x3) (k0_pay6 x1 x2)) (kernelRun0_A.sl.v258 c arg1 harg1 arg2 harg2 arg3 harg3 arg4 harg4 arg7 x0 x1 x2 x3) := by
  unfold kernelRun0_A.sl.r_15
  rw [KPiecesA_r_4, KPiecesA_r_6]

theorem KPiecesA_r_16 (c : Dev nD) (arg2 : Memref sig .tc .vmem S2048x128 .f32) (harg2 : arg2.IsWhole) (arg3 : Memref sig .tc .vmem S2048x128 .f32) (harg3 : arg3.IsWhole) (x1 x2 : Vec Ideal S2048x128 .f32) :
    kernelRun0_A.sl.r_16 (F := Ideal) c arg2 harg2 arg3 harg3 x1 x2 = k0_pay50 (k0_pay8 (k0_pay7 x1 x2)) (k0_pay10 (k0_pay4 x1 x2) (k0_pay6 x1 x2)) := by
  unfold kernelRun0_A.sl.r_16
  rw [KPiecesA_r_4, KPiecesA_r_5]

theorem KPiecesA_r_17 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (x0 x1 x2 x3 : Vec Ideal S2048x128 .f32) :
    kernelRun0_A.sl.r_17 (F := Ideal) c arg1 harg1 arg2 harg2 arg3 harg3 arg4 harg4 x0 x1 x2 x3 = k0_pay51 (k0_pay8 (k0_pay7 x1 x2)) (k0_pay11 (k0_pay5 x0 x3) (k0_pay6 x1 x2)) := by
  unfold kernelRun0_A.sl.r_17
  rw [KPiecesA_r_4, KPiecesA_r_6]

theorem KPiecesA_r_18 (c : Dev nD) (arg2 : Memref sig .tc .vmem S2048x128 .f32) (harg2 : arg2.IsWhole) (arg3 : Memref sig .tc .vmem S2048x128 .f32) (harg3 : arg3.IsWhole) (x1 x2 : Vec Ideal S2048x128 .f32) :
    kernelRun0_A.sl.r_18 (F := Ideal) c arg2 harg2 arg3 harg3 x1 x2 = k0_pay61 (k0_pay8 (k0_pay7 x1 x2)) (k0_pay10 (k0_pay4 x1 x2) (k0_pay6 x1 x2)) := by
  unfold kernelRun0_A.sl.r_18
  rw [KPiecesA_r_4, KPiecesA_r_5]

theorem KPiecesA_r_19 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (x0 x1 x2 x3 : Vec Ideal S2048x128 .f32) :
    kernelRun0_A.sl.r_19 (F := Ideal) c arg1 harg1 arg2 harg2 arg3 harg3 arg4 harg4 x0 x1 x2 x3 = k0_pay62 (k0_pay8 (k0_pay7 x1 x2)) (k0_pay11 (k0_pay5 x0 x3) (k0_pay6 x1 x2)) := by
  unfold kernelRun0_A.sl.r_19
  rw [KPiecesA_r_4, KPiecesA_r_6]

/-! The first carried row, store by store: after the reset and the stores into lanes 0 … j - 1 it holds the first j totals. -/
theorem KPiecesA_c0_1 (x1 x2 : Vec Ideal S2048x128 .f32) :
    View.canon (kernelRun0_A.sl.HS0_1 (F := Ideal)) = KPiecesA_part (cwV x1 x2) (binV x1 x2) 0 := by
  unfold kernelRun0_A.sl.HS0_1
  exact KPiecesA_canon_zero (cwV x1 x2) (binV x1 x2) (k0_pay2 (F := Ideal)) zeroRow0

theorem KPiecesA_c0_2 (c : Dev nD) (arg2 : Memref sig .tc .vmem S2048x128 .f32) (harg2 : arg2.IsWhole) (arg3 : Memref sig .tc .vmem S2048x128 .f32) (harg3 : arg3.IsWhole) (arg6 : Memref sig .tc .vmem S1x128 .f32) (x1 x2 : Vec Ideal S2048x128 .f32) :
    View.canon (kernelRun0_A.sl.HS0_2 (F := Ideal) c arg2 harg2 arg3 harg3 arg6 x1 x2) = KPiecesA_part (cwV x1 x2) (binV x1 x2) 1 := by
  unfold kernelRun0_A.sl.HS0_2
  refine KPiecesA_canon_step (cwV x1 x2) (binV x1 x2) 0 inb_S1x128_S1x1_0_0 _ _ (KPiecesA_c0_1 x1 x2) (fun x => ?_)
  simp only [KPiecesA_r, KPiecesA_r_2, KPiecesA_r_3, KPiecesA_r_4, KPiecesA_r_5, KPiecesA_r_8, KPiecesA_r_11, KPiecesA_r_13, KPiecesA_r_16, KPiecesA_r_18, kernelRun0_A.sl.v61]
  rw [KPiecesA_old_zero (cwV x1 x2) (binV x1 x2) 0 inb_S1x128_S1x1_0_0 arg6 _ (KPiecesA_c0_1 x1 x2)]
  rw [payC_0, laneUpd_apply]
  exact zero_add _

theorem KPiecesA_c0_3 (c : Dev nD) (arg2 : Memref sig .tc .vmem S2048x128 .f32) (harg2 : arg2.IsWhole) (arg3 : Memref sig .tc .vmem S2048x128 .f32) (harg3 : arg3.IsWhole) (arg6 : Memref sig .tc .vmem S1x128 .f32) (x1 x2 : Vec Ideal S2048x128 .f32) :
    View.canon (kernelRun0_A.sl.HS0_3 (F := Ideal) c arg2 harg2 arg3 harg3 arg6 x1 x2) = KPiecesA_part (cwV x1 x2) (binV x1 x2) 2 := by
  unfold kernelRun0_A.sl.HS0_3
  refine KPiecesA_canon_step (cwV x1 x2) (binV x1 x2) 1 inb_S1x128_S1x1_0_1 _ _ (KPiecesA_c0_2 c arg2 harg2 arg3 harg3 arg6 x1 x2) (fun x => ?_)
  simp only [KPiecesA_r, KPiecesA_r_2, KPiecesA_r_3, KPiecesA_r_4, KPiecesA_r_5, KPiecesA_r_8, KPiecesA_r_11, KPiecesA_r_13, KPiecesA_r_16, KPiecesA_r_18, kernelRun0_A.sl.v85]
  rw [KPiecesA_old_zero (cwV x1 x2) (binV x1 x2) 1 inb_S1x128_S1x1_0_1 arg6 _ (KPiecesA_c0_2 c arg2 harg2 arg3 harg3 arg6 x1 x2)]
  rw [payC_1, laneUpd_apply]
  exact zero_add _

theorem KPiecesA_c0_4 (c : Dev nD) (arg2 : Memref sig .tc .vmem S2048x128 .f32) (harg2 : arg2.IsWhole) (arg3 : Memref sig .tc .vmem S2048x128 .f32) (harg3 : arg3.IsWhole) (arg6 : Memref sig .tc .vmem S1x128 .f32) (x1 x2 : Vec Ideal S2048x128 .f32) :
    View.canon (kernelRun0_A.sl.HS0_4 (F := Ideal) c arg2 harg2 arg3 harg3 arg6 x1 x2) = KPiecesA_part (cwV x1 x2) (binV x1 x2) 3 := by
  unfold kernelRun0_A.sl.HS0_4
  refine KPiecesA_canon_step (cwV x1 x2) (binV x1 x2) 2 inb_S1x128_S1x1_0_2 _ _ (KPiecesA_c0_3 c arg2 harg2 arg3 harg3 arg6 x1 x2) (fun x => ?_)
  simp only [KPiecesA_r, KPiecesA_r_2, KPiecesA_r_3, KPiecesA_r_4, KPiecesA_r_5, KPiecesA_r_8, KPiecesA_r_11, KPiecesA_r_13, KPiecesA_r_16, KPiecesA_r_18, kernelRun0_A.sl.v109]
  rw [KPiecesA_old_zero (cwV x1 x2) (binV x1 x2) 2 inb_S1x128_S1x1_0_2 arg6 _ (KPiecesA_c0_3 c arg2 harg2 arg3 harg3 arg6 x1 x2)]
  rw [payC_2, laneUpd_apply]
  exact zero_add _

theorem KPiecesA_c0_5 (c : Dev nD) (arg2 : Memref sig .tc .vmem S2048x128 .f32) (harg2 : arg2.IsWhole) (arg3 : Memref sig .tc .vmem S2048x128 .f32) (harg3 : arg3.IsWhole) (arg6 : Memref sig .tc .vmem S1x128 .f32) (x1 x2 : Vec Ideal S2048x128 .f32) :
    View.canon (kernelRun0_A.sl.HS0_5 (F := Ideal) c arg2 harg2 arg3 harg3 arg6 x1 x2) = KPiecesA_part (cwV x1 x2) (binV x1 x2) 4 := by
  unfold kernelRun0_A.sl.HS0_5
  refine KPiecesA_canon_step (cwV x1 x2) (binV x1 x2) 3 inb_S1x128_S1x1_0_3 _ _ (KPiecesA_c0_4 c arg2 harg2 arg3 harg3 arg6 x1 x2) (fun x => ?_)
  simp only [KPiecesA_r, KPiecesA_r_2, KPiecesA_r_3, KPiecesA_r_4, KPiecesA_r_5, KPiecesA_r_8, KPiecesA_r_11, KPiecesA_r_13, KPiecesA_r_16, KPiecesA_r_18, kernelRun0_A.sl.v133]
  rw [KPiecesA_old_zero (cwV x1 x2) (binV x1 x2) 3 inb_S1x128_S1x1_0_3 arg6 _ (KPiecesA_c0_4 c arg2 harg2 arg3 harg3 arg6 x1 x2)]
  rw [payC_3, laneUpd_apply]
  exact zero_add _

theorem KPiecesA_c0_6 (c : Dev nD) (arg2 : Memref sig .tc .vmem S2048x128 .f32) (harg2 : arg2.IsWhole) (arg3 : Memref sig .tc .vmem S2048x128 .f32) (harg3 : arg3.IsWhole) (arg6 : Memref sig .tc .vmem S1x128 .f32) (x1 x2 : Vec Ideal S2048x128 .f32) :
    View.canon (kernelRun0_A.sl.HS0_6 (F := Ideal) c arg2 harg2 arg3 harg3 arg6 x1 x2) = KPiecesA_part (cwV x1 x2) (binV x1 x2) 5 := by
  unfold kernelRun0_A.sl.HS0_6
  refine KPiecesA_canon_step (cwV x1 x2) (binV x1 x2) 4 inb_S1x128_S1x1_0_4 _ _ (KPiecesA_c0_5 c arg2 harg2 arg3 harg3 arg6 x1 x2) (fun x => ?_)
  simp only [KPiecesA_r, KPiecesA_r_2, KPiecesA_r_3, KPiecesA_r_4, KPiecesA_r_5, KPiecesA_r_8, KPiecesA_r_11, KPiecesA_r_13, KPiecesA_r_16, KPiecesA_r_18, kernelRun0_A.sl.v157]
  rw [KPiecesA_old_zero (cwV x1 x2) (binV x1 x2) 4 inb_S1x128_S1x1_0_4 arg6 _ (KPiecesA_c0_5 c arg2 harg2 arg3 harg3 arg6 x1 x2)]
  rw [payC_4, laneUpd_apply]
  exact zero_add _

theorem KPiecesA_c0_7 (c : Dev nD) (arg2 : Memref sig .tc .vmem S2048x128 .f32) (harg2 : arg2.IsWhole) (arg3 : Memref sig .tc .vmem S2048x128 .f32) (harg3 : arg3.IsWhole) (arg6 : Memref sig .tc .vmem S1x128 .f32) (x1 x2 : Vec Ideal S2048x128 .f32) :
    View.canon (kernelRun0_A.sl.HS0_7 (F := Ideal) c arg2 harg2 arg3 harg3 arg6 x1 x2) = KPiecesA_part (cwV x1 x2) (binV x1 x2) 6 := by
  unfold kernelRun0_A.sl.HS0_7
  refine KPiecesA_canon_step (cwV x1 x2) (binV x1 x2) 5 inb_S1x128_S1x1_0_5 _ _ (KPiecesA_c0_6 c arg2 harg2 arg3 harg3 arg6 x1 x2) (fun x => ?_)
  simp only [KPiecesA_r, KPiecesA_r_2, KPiecesA_r_3, KPiecesA_r_4, KPiecesA_r_5, KPiecesA_r_8, KPiecesA_r_11, KPiecesA_r_13, KPiecesA_r_16, KPiecesA_r_18, kernelRun0_A.sl.v181]
  rw [KPiecesA_old_zero (cwV x1 x2) (binV x1 x2) 5 inb_S1x128_S1x1_0_5 arg6 _ (KPiecesA_c0_6 c arg2 harg2 arg3 harg3 arg6 x1 x2)]
  rw [payC_5, laneUpd_apply]
  exact zero_add _

theorem KPiecesA_c0_8 (c : Dev nD) (arg2 : Memref sig .tc .vmem S2048x128 .f32) (harg2 : arg2.IsWhole) (arg3 : Memref sig .tc .vmem S2048x128 .f32) (harg3 : arg3.IsWhole) (arg6 : Memref sig .tc .vmem S1x128 .f32) (x1 x2 : Vec Ideal S2048x128 .f32) :
    View.canon (kernelRun0_A.sl.HS0_8 (F := Ideal) c arg2 harg2 arg3 harg3 arg6 x1 x2) = KPiecesA_part (cwV x1 x2) (binV x1 x2) 7 := by
  unfold kernelRun0_A.sl.HS0_8
  refine KPiecesA_canon_step (cwV x1 x2) (binV x1 x2) 6 inb_S1x128_S1x1_0_6 _ _ (KPiecesA_c0_7 c arg2 harg2 arg3 harg3 arg6 x1 x2) (fun x => ?_)
  simp only [KPiecesA_r, KPiecesA_r_2, KPiecesA_r_3, KPiecesA_r_4, KPiecesA_r_5, KPiecesA_r_8, KPiecesA_r_11, KPiecesA_r_13, KPiecesA_r_16, KPiecesA_r_18, kernelRun0_A.sl.v205]
  rw [KPiecesA_old_zero (cwV x1 x2) (binV x1 x2) 6 inb_S1x128_S1x1_0_6 arg6 _ (KPiecesA_c0_7 c arg2 harg2 arg3 harg3 arg6 x1 x2)]
  rw [payC_6, laneUpd_apply]
  exact zero_add _

theorem KPiecesA_c0_9 (c : Dev nD) (arg2 : Memref sig .tc .vmem S2048x128 .f32) (harg2 : arg2.IsWhole) (arg3 : Memref sig .tc .vmem S2048x128 .f32) (harg3 : arg3.IsWhole) (arg6 : Memref sig .tc .vmem S1x128 .f32) (x1 x2 : Vec Ideal S2048x128 .f32) :
    View.canon (kernelRun0_A.sl.HS0_9 (F := Ideal) c arg2 harg2 arg3 harg3 arg6 x1 x2) = KPiecesA_part (cwV x1 x2) (binV x1 x2) 8 := by
  unfold kernelRun0_A.sl.HS0_9
  refine KPiecesA_canon_step (cwV x1 x2) (binV x1 x2) 7 inb_S1x128_S1x1_0_7 _ _ (KPiecesA_c0_8 c arg2 harg2 arg3 harg3 arg6 x1 x2) (fun x => ?_)
  simp only [KPiecesA_r, KPiecesA_r_2, KPiecesA_r_3, KPiecesA_r_4, KPiecesA_r_5, KPiecesA_r_8, KPiecesA_r_11, KPiecesA_r_13, KPiecesA_r_16, KPiecesA_r_18, kernelRun0_A.sl.v229]
  rw [KPiecesA_old_zero (cwV x1 x2) (binV x1 x2) 7 inb_S1x128_S1x1_0_7 arg6 _ (KPiecesA_c0_8 c arg2 harg2 arg3 harg3 arg6 x1 x2)]
  rw [payC_7, laneUpd_apply]
  exact zero_add _

theorem KPiecesA_c0_10 (c : Dev nD) (arg2 : Memref sig .tc .vmem S2048x128 .f32) (harg2 : arg2.IsWhole) (arg3 : Memref sig .tc .vmem S2048x128 .f32) (harg3 : arg3.IsWhole) (arg6 : Memref sig .tc .vmem S1x128 .f32) (x1 x2 : Vec Ideal S2048x128 .f32) :
    View.canon (kernelRun0_A.sl.HS0_10 (F := Ideal) c arg2 harg2 arg3 harg3 arg6 x1 x2) = KPiecesA_part (cwV x1 x2) (binV x1 x2) 9 := by
  unfold kernelRun0_A.sl.HS0_10
  refine KPiecesA_canon_step (cwV x1 x2) (binV x1 x2) 8 inb_S1x128_S1x1_0_8 _ _ (KPiecesA_c0_9 c arg2 harg2 arg3 harg3 arg6 x1 x2) (fun x => ?_)
  simp only [KPiecesA_r, KPiecesA_r_2, KPiecesA_r_3, KPiecesA_r_4, KPiecesA_r_5, KPiecesA_r_8, KPiecesA_r_11, KPiecesA_r_13, KPiecesA_r_16, KPiecesA_r_18, kernelRun0_A.sl.v253]
  rw [KPiecesA_old_zero (cwV x1 x2) (binV x1 x2) 8 inb_S1x128_S1x1_0_8 arg6 _ (KPiecesA_c0_9 c arg2 harg2 arg3 harg3 arg6 x1 x2)]
  rw [payC_8, laneUpd_apply]
  exact zero_add _

theorem KPiecesA_c0_11 (c : Dev nD) (arg2 : Memref sig .tc .vmem S2048x128 .f32) (harg2 : arg2.IsWhole) (arg3 : Memref sig .tc .vmem S2048x128 .f32) (harg3 : arg3.IsWhole) (arg6 : Memref sig .tc .vmem S1x128 .f32) (x1 x2 : Vec Ideal S2048x128 .f32) :
    View.canon (kernelRun0_A.sl.HS0_11 (F := Ideal) c arg2 harg2 arg3 harg3 arg6 x1 x2) = KPiecesA_part (cwV x1 x2) (binV x1 x2) 10 := by
  unfold kernelRun0_A.sl.HS0_11
  refine KPiecesA_canon_step (cwV x1 x2) (binV x1 x2) 9 inb_S1x128_S1x1_0_9 _ _ (KPiecesA_c0_10 c arg2 harg2 arg3 harg3 arg6 x1 x2) (fun x => ?_)
  simp only [KPiecesA_r, KPiecesA_r_2, KPiecesA_r_3, KPiecesA_r_4, KPiecesA_r_5, KPiecesA_r_8, KPiecesA_r_11, KPiecesA_r_13, KPiecesA_r_16, KPiecesA_r_18, kernelRun0_A.sl.v277]
  rw [KPiecesA_old_zero (cwV x1 x2) (binV x1 x2) 9 inb_S1x128_S1x1_0_9 arg6 _ (KPiecesA_c0_10 c arg2 harg2 arg3 harg3 arg6 x1 x2)]
  rw [payC_9, laneUpd_apply]
  exact zero_add _

theorem KPiecesA_c0_12 (c : Dev nD) (arg2 : Memref sig .tc .vmem S2048x128 .f32) (harg2 : arg2.IsWhole) (arg3 : Memref sig .tc .vmem S2048x128 .f32) (harg3 : arg3.IsWhole) (arg6 : Memref sig .tc .vmem S1x128 .f32) (x1 x2 : Vec Ideal S2048x128 .f32) :
    View.canon (kernelRun0_A.sl.HS0_12 (F := Ideal) c arg2 harg2 arg3 harg3 arg6 x1 x2) = KPiecesA_part (cwV x1 x2) (binV x1 x2) 11 := by
  unfold kernelRun0_A.sl.HS0_12
  refine KPiecesA_canon_step (cwV x1 x2) (binV x1 x2) 10 inb_S1x128_S1x1_0_10 _ _ (KPiecesA_c0_11 c arg2 harg2 arg3 harg3 arg6 x1 x2) (fun x => ?_)
  simp only [KPiecesA_r, KPiecesA_r_2, KPiecesA_r_3, KPiecesA_r_4, KPiecesA_r_5, KPiecesA_r_8, KPiecesA_r_11, KPiecesA_r_13, KPiecesA_r_16, KPiecesA_r_18, kernelRun0_A.sl.v301]
  rw [KPiecesA_old_zero (cwV x1 x2) (binV x1 x2) 10 inb_S1x128_S1x1_0_10 arg6 _ (KPiecesA_c0_11 c arg2 harg2 arg3 harg3 arg6 x1 x2)]
  rw [payC_10, laneUpd_apply]
  exact zero_add _

theorem KPiecesA_c0_13 (c : Dev nD) (arg2 : Memref sig .tc .vmem S2048x128 .f32) (harg2 : arg2.IsWhole) (arg3 : Memref sig .tc .vmem S2048x128 .f32) (harg3 : arg3.IsWhole) (arg6 : Memref sig .tc .vmem S1x128 .f32) (x1 x2 : Vec Ideal S2048x128 .f32) :
    View.canon (kernelRun0_A.sl.HS0_13 (F := Ideal) c arg2 harg2 arg3 harg3 arg6 x1 x2) = KPiecesA_part (cwV x1 x2) (binV x1 x2) 12 := by
  unfold kernelRun0_A.sl.HS0_13
  refine KPiecesA_canon_step (cwV x1 x2) (binV x1 x2) 11 inb_S1x128_S1x1_0_11 _ _ (KPiecesA_c0_12 c arg2 harg2 arg3 harg3 arg6 x1 x2) (fun x => ?_)
  simp only [KPiecesA_r, KPiecesA_r_2, KPiecesA_r_3, KPiecesA_r_4, KPiecesA_r_5, KPiecesA_r_8, KPiecesA_r_11, KPiecesA_r_13, KPiecesA_r_16, KPiecesA_r_18, kernelRun0_A.sl.v325]
  rw [KPiecesA_old_zero (cwV x1 x2) (binV x1 x2) 11 inb_S1x128_S1x1_0_11 arg6 _ (KPiecesA_c0_12 c arg2 harg2 arg3 harg3 arg6 x1 x2)]
  rw [payC_11, laneUpd_apply]
  exact zero_add _

theorem KPiecesA_c0_14 (c : Dev nD) (arg2 : Memref sig .tc .vmem S2048x128 .f32) (harg2 : arg2.IsWhole) (arg3 : Memref sig .tc .vmem S2048x128 .f32) (harg3 : arg3.IsWhole) (arg6 : Memref sig .tc .vmem S1x128 .f32) (x1 x2 : Vec Ideal S2048x128 .f32) :
    View.canon (kernelRun0_A.sl.HS0_14 (F := Ideal) c arg2 harg2 arg3 harg3 arg6 x1 x2) = KPiecesA_part (cwV x1 x2) (binV x1 x2) 13 := by
  unfold kernelRun0_A.sl.HS0_14
  refine KPiecesA_canon_step (cwV x1 x2) (binV x1 x2) 12 inb_S1x128_S1x1_0_12 _ _ (KPiecesA_c0_13 c arg2 harg2 arg3 harg3 arg6 x1 x2) (fun x => ?_)
  simp only [KPiecesA_r, KPiecesA_r_2, KPiecesA_r_3, KPiecesA_r_4, KPiecesA_r_5, KPiecesA_r_8, KPiecesA_r_11, KPiecesA_r_13, KPiecesA_r_16, KPiecesA_r_18, kernelRun0_A.sl.v349]
  rw [KPiecesA_old_zero (cwV x1 x2) (binV x1 x2) 12 inb_S1x128_S1x1_0_12 arg6 _ (KPiecesA_c0_13 c arg2 harg2 arg3 harg3 arg6 x1 x2)]
  rw [payC_12, laneUpd_apply]
  exact zero_add _

theorem KPiecesA_c0_15 (c : Dev nD) (arg2 : Memref sig .tc .vmem S2048x128 .f32) (harg2 : arg2.IsWhole) (arg3 : Memref sig .tc .vmem S2048x128 .f32) (harg3 : arg3.IsWhole) (arg6 : Memref sig .tc .vmem S1x128 .f32) (x1 x2 : Vec Ideal S2048x128 .f32) :
    View.canon (kernelRun0_A.sl.HS0_15 (F := Ideal) c arg2 harg2 arg3 harg3 arg6 x1 x2) = KPiecesA_part (cwV x1 x2) (binV x1 x2) 14 := by
  unfold kernelRun0_A.sl.HS0_15
  refine KPiecesA_canon_step (cwV x1 x2) (binV x1 x2) 13 inb_S1x128_S1x1_0_13 _ _ (KPiecesA_c0_14 c arg2 harg2 arg3 harg3 arg6 x1 x2) (fun x => ?_)
  simp only [KPiecesA_r, KPiecesA_r_2, KPiecesA_r_3, KPiecesA_r_4, KPiecesA_r_5, KPiecesA_r_8, KPiecesA_r_11, KPiecesA_r_13, KPiecesA_r_16, KPiecesA_r_18, kernelRun0_A.sl.v373]
  rw [KPiecesA_old_zero (cwV x1 x2) (binV x1 x2) 13 inb_S1x128_S1x1_0_13 arg6 _ (KPiecesA_c0_14 c arg2 harg2 arg3 harg3 arg6 x1 x2)]
  rw [payC_13, laneUpd_apply]
  exact zero_add _

/-- What the first grid point leaves in the first carried row: the block's fifteen weighted-confidence totals. -/
theorem sout0_A_0_eq (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x1 .f32) (harg5 : arg5.IsWhole) (arg6 : Memref sig .tc .vmem S1x128 .f32) (harg6 : arg6.IsWhole) (arg7 : Memref sig .tc .vmem S1x128 .f32) (harg7 : arg7.IsWhole) (hc0 : cond0_0 i) (hc1 : ¬cond0_1 i) (x0 x1 x2 x3 : Vec Ideal S2048x128 .f32) :
    sout0_A_0 (F := Ideal) c i arg1 harg1 arg2 harg2 arg3 harg3 arg4 harg4 arg5 harg5 arg6 harg6 arg7 harg7 hc0 hc1 x0 x1 x2 x3 = rowStep (cwV x1 x2) (binV x1 x2) (fun _ => 0) := by
  unfold sout0_A_0
  unfold kernelRun0_A
  dsimp only
  refine (View.read_writes_junk_eq_canon VS0_0 _).trans ?_
  refine (KPiecesA_canon_step (cwV x1 x2) (binV x1 x2) 14 inb_S1x128_S1x1_0_14 _ _ (KPiecesA_c0_15 c arg2 harg2 arg3 harg3 arg6 x1 x2) (fun x => ?_)).trans
    (KPiecesA_part_fifteen (cwV x1 x2) (binV x1 x2))
  simp only [KPiecesA_r, KPiecesA_r_2, KPiecesA_r_3, KPiecesA_r_4, KPiecesA_r_5, KPiecesA_r_8, KPiecesA_r_11, KPiecesA_r_13, KPiecesA_r_16, KPiecesA_r_18, kernelRun0_A.sl.v397]
  rw [KPiecesA_old_zero (cwV x1 x2) (binV x1 x2) 14 inb_S1x128_S1x1_0_14 arg6 _ (KPiecesA_c0_15 c arg2 harg2 arg3 harg3 arg6 x1 x2)]
  rw [payC_14, laneUpd_apply]
  exact zero_add _

/-! The second carried row, store by store, in the same way. -/
theorem KPiecesA_c1_1 (x0 x1 x2 x3 : Vec Ideal S2048x128 .f32) :
    View.canon (kernelRun0_A.sl.HS1_1 (F := Ideal)) = KPiecesA_part (awV x0 x1 x2 x3) (binV x1 x2) 0 := by
  unfold kernelRun0_A.sl.HS1_1
  exact KPiecesA_canon_zero (awV x0 x1 x2 x3) (binV x1 x2) (k0_pay3 (F := Ideal)) zeroRow1

theorem KPiecesA_c1_2 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg7 : Memref sig .tc .vmem S1x128 .f32) (x0 x1 x2 x3 : Vec Ideal S2048x128 .f32) :
    View.canon (kernelRun0_A.sl.HS1_2 (F := Ideal) c arg1 harg1 arg2 harg2 arg3 harg3 arg4 harg4 arg7 x0 x1 x2 x3) = KPiecesA_part (awV x0 x1 x2 x3) (binV x1 x2) 1 := by
  unfold kernelRun0_A.sl.HS1_2
  refine KPiecesA_canon_step (awV x0 x1 x2 x3) (binV x1 x2) 0 inb_S1x128_S1x1_0_0 _ _ (KPiecesA_c1_1 x0 x1 x2 x3) (fun x => ?_)
  simp only [KPiecesA_r_1, KPiecesA_r_2, KPiecesA_r_3, KPiecesA_r_4, KPiecesA_r_6, KPiecesA_r_7, KPiecesA_r_9, KPiecesA_r_10, KPiecesA_r_12, KPiecesA_r_14, KPiecesA_r_15, KPiecesA_r_17, KPiecesA_r_19, kernelRun0_A.sl.v66]
  rw [KPiecesA_old_zero (awV x0 x1 x2 x3) (binV x1 x2) 0 inb_S1x128_S1x1_0_0 arg7 _ (KPiecesA_c1_1 x0 x1 x2 x3)]
  rw [payA_0, laneUpd_apply]
  exact zero_add _

theorem KPiecesA_c1_3 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg7 : Memref sig .tc .vmem S1x128 .f32) (x0 x1 x2 x3 : Vec Ideal S2048x128 .f32) :
    View.canon (kernelRun0_A.sl.HS1_3 (F := Ideal) c arg1 harg1 arg2 harg2 arg3 harg3 arg4 harg4 arg7 x0 x1 x2 x3) = KPiecesA_part (awV x0 x1 x2 x3) (binV x1 x2) 2 := by
  unfold kernelRun0_A.sl.HS1_3
  refine KPiecesA_canon_step (awV x0 x1 x2 x3) (binV x1 x2) 1 inb_S1x128_S1x1_0_1 _ _ (KPiecesA_c1_2 c arg1 harg1 arg2 harg2 arg3 harg3 arg4 harg4 arg7 x0 x1 x2 x3) (fun x => ?_)
  simp only [KPiecesA_r_1, KPiecesA_r_2, KPiecesA_r_3, KPiecesA_r_4, KPiecesA_r_6, KPiecesA_r_7, KPiecesA_r_9, KPiecesA_r_10, KPiecesA_r_12, KPiecesA_r_14, KPiecesA_r_15, KPiecesA_r_17, KPiecesA_r_19, kernelRun0_A.sl.v90]
  rw [KPiecesA_old_zero (awV x0 x1 x2 x3) (binV x1 x2) 1 inb_S1x128_S1x1_0_1 arg7 _ (KPiecesA_c1_2 c arg1 harg1 arg2 harg2 arg3 harg3 arg4 harg4 arg7 x0 x1 x2 x3)]
  rw [payA_1, laneUpd_apply]
  exact zero_add _

theorem KPiecesA_c1_4 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg7 : Memref sig .tc .vmem S1x128 .f32) (x0 x1 x2 x3 : Vec Ideal S2048x128 .f32) :
    View.canon (kernelRun0_A.sl.HS1_4 (F := Ideal) c arg1 harg1 arg2 harg2 arg3 harg3 arg4 harg4 arg7 x0 x1 x2 x3) = KPiecesA_part (awV x0 x1 x2 x3) (binV x1 x2) 3 := by
  unfold kernelRun0_A.sl.HS1_4
  refine KPiecesA_canon_step (awV x0 x1 x2 x3) (binV x1 x2) 2 inb_S1x128_S1x1_0_2 _ _ (KPiecesA_c1_3 c arg1 harg1 arg2 harg2 arg3 harg3 arg4 harg4 arg7 x0 x1 x2 x3) (fun x => ?_)
  simp only [KPiecesA_r_1, KPiecesA_r_2, KPiecesA_r_3, KPiecesA_r_4, KPiecesA_r_6, KPiecesA_r_7, KPiecesA_r_9, KPiecesA_r_10, KPiecesA_r_12, KPiecesA_r_14, KPiecesA_r_15, KPiecesA_r_17, KPiecesA_r_19, kernelRun0_A.sl.v114]
  rw [KPiecesA_old_zero (awV x0 x1 x2 x3) (binV x1 x2) 2 inb_S1x128_S1x1_0_2 arg7 _ (KPiecesA_c1_3 c arg1 harg1 arg2 harg2 arg3 harg3 arg4 harg4 arg7 x0 x1 x2 x3)]
  rw [payA_2, laneUpd_apply]
  exact zero_add _

theorem KPiecesA_c1_5 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg7 : Memref sig .tc .vmem S1x128 .f32) (x0 x1 x2 x3 : Vec Ideal S2048x128 .f32) :
    View.canon (kernelRun0_A.sl.HS1_5 (F := Ideal) c arg1 harg1 arg2 harg2 arg3 harg3 arg4 harg4 arg7 x0 x1 x2 x3) = KPiecesA_part (awV x0 x1 x2 x3) (binV x1 x2) 4 := by
  unfold kernelRun0_A.sl.HS1_5
  refine KPiecesA_canon_step (awV x0 x1 x2 x3) (binV x1 x2) 3 inb_S1x128_S1x1_0_3 _ _ (KPiecesA_c1_4 c arg1 harg1 arg2 harg2 arg3 harg3 arg4 harg4 arg7 x0 x1 x2 x3) (fun x => ?_)
  simp only [KPiecesA_r_1, KPiecesA_r_2, KPiecesA_r_3, KPiecesA_r_4, KPiecesA_r_6, KPiecesA_r_7, KPiecesA_r_9, KPiecesA_r_10, KPiecesA_r_12, KPiecesA_r_14, KPiecesA_r_15, KPiecesA_r_17, KPiecesA_r_19, kernelRun0_A.sl.v138]
  rw [KPiecesA_old_zero (awV x0 x1 x2 x3) (binV x1 x2) 3 inb_S1x128_S1x1_0_3 arg7 _ (KPiecesA_c1_4 c arg1 harg1 arg2 harg2 arg3 harg3 arg4 harg4 arg7 x0 x1 x2 x3)]
  rw [payA_3, laneUpd_apply]
  exact zero_add _

theorem KPiecesA_c1_6 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg7 : Memref sig .tc .vmem S1x128 .f32) (x0 x1 x2 x3 : Vec Ideal S2048x128 .f32) :
    View.canon (kernelRun0_A.sl.HS1_6 (F := Ideal) c arg1 harg1 arg2 harg2 arg3 harg3 arg4 harg4 arg7 x0 x1 x2 x3) = KPiecesA_part (awV x0 x1 x2 x3) (binV x1 x2) 5 := by
  unfold kernelRun0_A.sl.HS1_6
  refine KPiecesA_canon_step (awV x0 x1 x2 x3) (binV x1 x2) 4 inb_S1x128_S1x1_0_4 _ _ (KPiecesA_c1_5 c arg1 harg1 arg2 harg2 arg3 harg3 arg4 harg4 arg7 x0 x1 x2 x3) (fun x => ?_)
  simp only [KPiecesA_r_1, KPiecesA_r_2, KPiecesA_r_3, KPiecesA_r_4, KPiecesA_r_6, KPiecesA_r_7, KPiecesA_r_9, KPiecesA_r_10, KPiecesA_r_12, KPiecesA_r_14, KPiecesA_r_15, KPiecesA_r_17, KPiecesA_r_19, kernelRun0_A.sl.v162]
  rw [KPiecesA_old_zero (awV x0 x1 x2 x3) (binV x1 x2) 4 inb_S1x128_S1x1_0_4 arg7 _ (KPiecesA_c1_5 c arg1 harg1 arg2 harg2 arg3 harg3 arg4 harg4 arg7 x0 x1 x2 x3)]
  rw [payA_4, laneUpd_apply]
  exact zero_add _

theorem KPiecesA_c1_7 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg7 : Memref sig .tc .vmem S1x128 .f32) (x0 x1 x2 x3 : Vec Ideal S2048x128 .f32) :
    View.canon (kernelRun0_A.sl.HS1_7 (F := Ideal) c arg1 harg1 arg2 harg2 arg3 harg3 arg4 harg4 arg7 x0 x1 x2 x3) = KPiecesA_part (awV x0 x1 x2 x3) (binV x1 x2) 6 := by
  unfold kernelRun0_A.sl.HS1_7
  refine KPiecesA_canon_step (awV x0 x1 x2 x3) (binV x1 x2) 5 inb_S1x128_S1x1_0_5 _ _ (KPiecesA_c1_6 c arg1 harg1 arg2 harg2 arg3 harg3 arg4 harg4 arg7 x0 x1 x2 x3) (fun x => ?_)
  simp only [KPiecesA_r_1, KPiecesA_r_2, KPiecesA_r_3, KPiecesA_r_4, KPiecesA_r_6, KPiecesA_r_7, KPiecesA_r_9, KPiecesA_r_10, KPiecesA_r_12, KPiecesA_r_14, KPiecesA_r_15, KPiecesA_r_17, KPiecesA_r_19, kernelRun0_A.sl.v186]
  rw [KPiecesA_old_zero (awV x0 x1 x2 x3) (binV x1 x2) 5 inb_S1x128_S1x1_0_5 arg7 _ (KPiecesA_c1_6 c arg1 harg1 arg2 harg2 arg3 harg3 arg4 harg4 arg7 x0 x1 x2 x3)]
  rw [payA_5, laneUpd_apply]
  exact zero_add _

theorem KPiecesA_c1_8 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg7 : Memref sig .tc .vmem S1x128 .f32) (x0 x1 x2 x3 : Vec Ideal S2048x128 .f32) :
    View.canon (kernelRun0_A.sl.HS1_8 (F := Ideal) c arg1 harg1 arg2 harg2 arg3 harg3 arg4 harg4 arg7 x0 x1 x2 x3) = KPiecesA_part (awV x0 x1 x2 x3) (binV x1 x2) 7 := by
  unfold kernelRun0_A.sl.HS1_8
  refine KPiecesA_canon_step (awV x0 x1 x2 x3) (binV x1 x2) 6 inb_S1x128_S1x1_0_6 _ _ (KPiecesA_c1_7 c arg1 harg1 arg2 harg2 arg3 harg3 arg4 harg4 arg7 x0 x1 x2 x3) (fun x => ?_)
  simp only [KPiecesA_r_1, KPiecesA_r_2, KPiecesA_r_3, KPiecesA_r_4, KPiecesA_r_6, KPiecesA_r_7, KPiecesA_r_9, KPiecesA_r_10, KPiecesA_r_12, KPiecesA_r_14, KPiecesA_r_15, KPiecesA_r_17, KPiecesA_r_19, kernelRun0_A.sl.v210]
  rw [KPiecesA_old_zero (awV x0 x1 x2 x3) (binV x1 x2) 6 inb_S1x128_S1x1_0_6 arg7 _ (KPiecesA_c1_7 c arg1 harg1 arg2 harg2 arg3 harg3 arg4 harg4 arg7 x0 x1 x2 x3)]
  rw [payA_6, laneUpd_apply]
  exact zero_add _

theorem KPiecesA_c1_9 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg7 : Memref sig .tc .vmem S1x128 .f32) (x0 x1 x2 x3 : Vec Ideal S2048x128 .f32) :
    View.canon (kernelRun0_A.sl.HS1_9 (F := Ideal) c arg1 harg1 arg2 harg2 arg3 harg3 arg4 harg4 arg7 x0 x1 x2 x3) = KPiecesA_part (awV x0 x1 x2 x3) (binV x1 x2) 8 := by
  unfold kernelRun0_A.sl.HS1_9
  refine KPiecesA_canon_step (awV x0 x1 x2 x3) (binV x1 x2) 7 inb_S1x128_S1x1_0_7 _ _ (KPiecesA_c1_8 c arg1 harg1 arg2 harg2 arg3 harg3 arg4 harg4 arg7 x0 x1 x2 x3) (fun x => ?_)
  simp only [KPiecesA_r_1, KPiecesA_r_2, KPiecesA_r_3, KPiecesA_r_4, KPiecesA_r_6, KPiecesA_r_7, KPiecesA_r_9, KPiecesA_r_10, KPiecesA_r_12, KPiecesA_r_14, KPiecesA_r_15, KPiecesA_r_17, KPiecesA_r_19, kernelRun0_A.sl.v234]
  rw [KPiecesA_old_zero (awV x0 x1 x2 x3) (binV x1 x2) 7 inb_S1x128_S1x1_0_7 arg7 _ (KPiecesA_c1_8 c arg1 harg1 arg2 harg2 arg3 harg3 arg4 harg4 arg7 x0 x1 x2 x3)]
  rw [payA_7, laneUpd_apply]
  exact zero_add _

theorem KPiecesA_c1_10 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg7 : Memref sig .tc .vmem S1x128 .f32) (x0 x1 x2 x3 : Vec Ideal S2048x128 .f32) :
    View.canon (kernelRun0_A.sl.HS1_10 (F := Ideal) c arg1 harg1 arg2 harg2 arg3 harg3 arg4 harg4 arg7 x0 x1 x2 x3) = KPiecesA_part (awV x0 x1 x2 x3) (binV x1 x2) 9 := by
  unfold kernelRun0_A.sl.HS1_10
  refine KPiecesA_canon_step (awV x0 x1 x2 x3) (binV x1 x2) 8 inb_S1x128_S1x1_0_8 _ _ (KPiecesA_c1_9 c arg1 harg1 arg2 harg2 arg3 harg3 arg4 harg4 arg7 x0 x1 x2 x3) (fun x => ?_)
  simp only [KPiecesA_r_1, KPiecesA_r_2, KPiecesA_r_3, KPiecesA_r_4, KPiecesA_r_6, KPiecesA_r_7, KPiecesA_r_9, KPiecesA_r_10, KPiecesA_r_12, KPiecesA_r_14, KPiecesA_r_15, KPiecesA_r_17, KPiecesA_r_19, kernelRun0_A.sl.v258]
  rw [KPiecesA_old_zero (awV x0 x1 x2 x3) (binV x1 x2) 8 inb_S1x128_S1x1_0_8 arg7 _ (KPiecesA_c1_9 c arg1 harg1 arg2 harg2 arg3 harg3 arg4 harg4 arg7 x0 x1 x2 x3)]
  rw [payA_8, laneUpd_apply]
  exact zero_add _

theorem KPiecesA_c1_11 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg7 : Memref sig .tc .vmem S1x128 .f32) (x0 x1 x2 x3 : Vec Ideal S2048x128 .f32) :
    View.canon (kernelRun0_A.sl.HS1_11 (F := Ideal) c arg1 harg1 arg2 harg2 arg3 harg3 arg4 harg4 arg7 x0 x1 x2 x3) = KPiecesA_part (awV x0 x1 x2 x3) (binV x1 x2) 10 := by
  unfold kernelRun0_A.sl.HS1_11
  refine KPiecesA_canon_step (awV x0 x1 x2 x3) (binV x1 x2) 9 inb_S1x128_S1x1_0_9 _ _ (KPiecesA_c1_10 c arg1 harg1 arg2 harg2 arg3 harg3 arg4 harg4 arg7 x0 x1 x2 x3) (fun x => ?_)
  simp only [KPiecesA_r_1, KPiecesA_r_2, KPiecesA_r_3, KPiecesA_r_4, KPiecesA_r_6, KPiecesA_r_7, KPiecesA_r_9, KPiecesA_r_10, KPiecesA_r_12, KPiecesA_r_14, KPiecesA_r_15, KPiecesA_r_17, KPiecesA_r_19, kernelRun0_A.sl.v282]
  rw [KPiecesA_old_zero (awV x0 x1 x2 x3) (binV x1 x2) 9 inb_S1x128_S1x1_0_9 arg7 _ (KPiecesA_c1_10 c arg1 harg1 arg2 harg2 arg3 harg3 arg4 harg4 arg7 x0 x1 x2 x3)]
  rw [payA_9, laneUpd_apply]
  exact zero_add _

theorem KPiecesA_c1_12 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg7 : Memref sig .tc .vmem S1x128 .f32) (x0 x1 x2 x3 : Vec Ideal S2048x128 .f32) :
    View.canon (kernelRun0_A.sl.HS1_12 (F := Ideal) c arg1 harg1 arg2 harg2 arg3 harg3 arg4 harg4 arg7 x0 x1 x2 x3) = KPiecesA_part (awV x0 x1 x2 x3) (binV x1 x2) 11 := by
  unfold kernelRun0_A.sl.HS1_12
  refine KPiecesA_canon_step (awV x0 x1 x2 x3) (binV x1 x2) 10 inb_S1x128_S1x1_0_10 _ _ (KPiecesA_c1_11 c arg1 harg1 arg2 harg2 arg3 harg3 arg4 harg4 arg7 x0 x1 x2 x3) (fun x => ?_)
  simp only [KPiecesA_r_1, KPiecesA_r_2, KPiecesA_r_3, KPiecesA_r_4, KPiecesA_r_6, KPiecesA_r_7, KPiecesA_r_9, KPiecesA_r_10, KPiecesA_r_12, KPiecesA_r_14, KPiecesA_r_15, KPiecesA_r_17, KPiecesA_r_19, kernelRun0_A.sl.v306]
  rw [KPiecesA_old_zero (awV x0 x1 x2 x3) (binV x1 x2) 10 inb_S1x128_S1x1_0_10 arg7 _ (KPiecesA_c1_11 c arg1 harg1 arg2 harg2 arg3 harg3 arg4 harg4 arg7 x0 x1 x2 x3)]
  rw [payA_10, laneUpd_apply]
  exact zero_add _

theorem KPiecesA_c1_13 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg7 : Memref sig .tc .vmem S1x128 .f32) (x0 x1 x2 x3 : Vec Ideal S2048x128 .f32) :
    View.canon (kernelRun0_A.sl.HS1_13 (F := Ideal) c arg1 harg1 arg2 harg2 arg3 harg3 arg4 harg4 arg7 x0 x1 x2 x3) = KPiecesA_part (awV x0 x1 x2 x3) (binV x1 x2) 12 := by
  unfold kernelRun0_A.sl.HS1_13
  refine KPiecesA_canon_step (awV x0 x1 x2 x3) (binV x1 x2) 11 inb_S1x128_S1x1_0_11 _ _ (KPiecesA_c1_12 c arg1 harg1 arg2 harg2 arg3 harg3 arg4 harg4 arg7 x0 x1 x2 x3) (fun x => ?_)
  simp only [KPiecesA_r_1, KPiecesA_r_2, KPiecesA_r_3, KPiecesA_r_4, KPiecesA_r_6, KPiecesA_r_7, KPiecesA_r_9, KPiecesA_r_10, KPiecesA_r_12, KPiecesA_r_14, KPiecesA_r_15, KPiecesA_r_17, KPiecesA_r_19, kernelRun0_A.sl.v330]
  rw [KPiecesA_old_zero (awV x0 x1 x2 x3) (binV x1 x2) 11 inb_S1x128_S1x1_0_11 arg7 _ (KPiecesA_c1_12 c arg1 harg1 arg2 harg2 arg3 harg3 arg4 harg4 arg7 x0 x1 x2 x3)]
  rw [payA_11, laneUpd_apply]
  exact zero_add _

theorem KPiecesA_c1_14 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg7 : Memref sig .tc .vmem S1x128 .f32) (x0 x1 x2 x3 : Vec Ideal S2048x128 .f32) :
    View.canon (kernelRun0_A.sl.HS1_14 (F := Ideal) c arg1 harg1 arg2 harg2 arg3 harg3 arg4 harg4 arg7 x0 x1 x2 x3) = KPiecesA_part (awV x0 x1 x2 x3) (binV x1 x2) 13 := by
  unfold kernelRun0_A.sl.HS1_14
  refine KPiecesA_canon_step (awV x0 x1 x2 x3) (binV x1 x2) 12 inb_S1x128_S1x1_0_12 _ _ (KPiecesA_c1_13 c arg1 harg1 arg2 harg2 arg3 harg3 arg4 harg4 arg7 x0 x1 x2 x3) (fun x => ?_)
  simp only [KPiecesA_r_1, KPiecesA_r_2, KPiecesA_r_3, KPiecesA_r_4, KPiecesA_r_6, KPiecesA_r_7, KPiecesA_r_9, KPiecesA_r_10, KPiecesA_r_12, KPiecesA_r_14, KPiecesA_r_15, KPiecesA_r_17, KPiecesA_r_19, kernelRun0_A.sl.v354]
  rw [KPiecesA_old_zero (awV x0 x1 x2 x3) (binV x1 x2) 12 inb_S1x128_S1x1_0_12 arg7 _ (KPiecesA_c1_13 c arg1 harg1 arg2 harg2 arg3 harg3 arg4 harg4 arg7 x0 x1 x2 x3)]
  rw [payA_12, laneUpd_apply]
  exact zero_add _

theorem KPiecesA_c1_15 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg7 : Memref sig .tc .vmem S1x128 .f32) (x0 x1 x2 x3 : Vec Ideal S2048x128 .f32) :
    View.canon (kernelRun0_A.sl.HS1_15 (F := Ideal) c arg1 harg1 arg2 harg2 arg3 harg3 arg4 harg4 arg7 x0 x1 x2 x3) = KPiecesA_part (awV x0 x1 x2 x3) (binV x1 x2) 14 := by
  unfold kernelRun0_A.sl.HS1_15
  refine KPiecesA_canon_step (awV x0 x1 x2 x3) (binV x1 x2) 13 inb_S1x128_S1x1_0_13 _ _ (KPiecesA_c1_14 c arg1 harg1 arg2 harg2 arg3 harg3 arg4 harg4 arg7 x0 x1 x2 x3) (fun x => ?_)
  simp only [KPiecesA_r_1, KPiecesA_r_2, KPiecesA_r_3, KPiecesA_r_4, KPiecesA_r_6, KPiecesA_r_7, KPiecesA_r_9, KPiecesA_r_10, KPiecesA_r_12, KPiecesA_r_14, KPiecesA_r_15, KPiecesA_r_17, KPiecesA_r_19, kernelRun0_A.sl.v378]
  rw [KPiecesA_old_zero (awV x0 x1 x2 x3) (binV x1 x2) 13 inb_S1x128_S1x1_0_13 arg7 _ (KPiecesA_c1_14 c arg1 harg1 arg2 harg2 arg3 harg3 arg4 harg4 arg7 x0 x1 x2 x3)]
  rw [payA_13, laneUpd_apply]
  exact zero_add _

/-- What the first grid point leaves in the second carried row: the block's fifteen weighted-accuracy totals. -/
theorem sout0_A_1_eq (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x1 .f32) (harg5 : arg5.IsWhole) (arg6 : Memref sig .tc .vmem S1x128 .f32) (harg6 : arg6.IsWhole) (arg7 : Memref sig .tc .vmem S1x128 .f32) (harg7 : arg7.IsWhole) (hc0 : cond0_0 i) (hc1 : ¬cond0_1 i) (x0 x1 x2 x3 : Vec Ideal S2048x128 .f32) :
    sout0_A_1 (F := Ideal) c i arg1 harg1 arg2 harg2 arg3 harg3 arg4 harg4 arg5 harg5 arg6 harg6 arg7 harg7 hc0 hc1 x0 x1 x2 x3 = rowStep (awV x0 x1 x2 x3) (binV x1 x2) (fun _ => 0) := by
  unfold sout0_A_1
  unfold kernelRun0_A
  dsimp only
  refine (View.read_writes_junk_eq_canon VS0_1 _).trans ?_
  refine (KPiecesA_canon_step (awV x0 x1 x2 x3) (binV x1 x2) 14 inb_S1x128_S1x1_0_14 _ _ (KPiecesA_c1_15 c arg1 harg1 arg2 harg2 arg3 harg3 arg4 harg4 arg7 x0 x1 x2 x3) (fun x => ?_)).trans
    (KPiecesA_part_fifteen (awV x0 x1 x2 x3) (binV x1 x2))
  simp only [KPiecesA_r_1, KPiecesA_r_2, KPiecesA_r_3, KPiecesA_r_4, KPiecesA_r_6, KPiecesA_r_7, KPiecesA_r_9, KPiecesA_r_10, KPiecesA_r_12, KPiecesA_r_14, KPiecesA_r_15, KPiecesA_r_17, KPiecesA_r_19, kernelRun0_A.sl.v402]
  rw [KPiecesA_old_zero (awV x0 x1 x2 x3) (binV x1 x2) 14 inb_S1x128_S1x1_0_14 arg7 _ (KPiecesA_c1_15 c arg1 harg1 arg2 harg2 arg3 harg3 arg4 harg4 arg7 x0 x1 x2 x3)]
  rw [payA_14, laneUpd_apply]
  exact zero_add _

end Cert.KernelIdeal.Hand

end
-- ==== Proof.KPiecesBC.lean ====
/-
  The later grid points: each carried row takes the block's fifteen totals over what the point before left, one step of
  Spec.lean's carried row; the last point also stores the gap between the two rows as they stand after its own step.
-/
import proofs.«140573_j48258252538340_1_alg».proof.Proof.KLane
import proofs.«140573_j48258252538340_1_alg».proof.Proof.Gen.KernelIdeal.Frame
import Idealize.ShloMosaic.Lib.Pipeline.Value
import Idealize.ShloMosaic.Lib.Pipeline.CanonAppend
import Idealize.ShloMosaic.Lib.WritesUnit

set_option maxRecDepth 16384

noncomputable section

namespace Cert.KernelIdeal.Hand

open Idealize.ShloMosaic Idealize.ShloMosaic.ValueIdx Idealize.ShloMosaic.TcCoe Idealize.ShloMosaic.Tactic
open Idealize.SL Idealize.SL.Sem
open Cert.KernelIdeal Cert.KernelIdeal.Gen Cert.Calib

/-- A load of a whole block, the block's buffer held at the contents that read `X`, reads `X`. -/
private theorem KPiecesBC_whole {d : Fin 2 → ℕ} (m : Memref sig .tc .vmem (⟨2, d⟩ : Shape) .f32) (h : m.IsWhole)
    (X : Vec Ideal (⟨2, d⟩ : Shape) .f32)
    (inb : ∀ a, (![0, 0] : Fin 2 → ℕ) a + (⟨2, d⟩ : Shape).size a ≤ (⟨2, d⟩ : Shape).size a) :
    View.readAt (Elt Ideal) m.view (Rect.unit (s := (⟨2, d⟩ : Shape)) ![0, 0] (⟨2, d⟩ : Shape).size inb).toLoadRect
      (h.unread X) = X := by
  rw [View.readAt_eq_ld, h.read_unread]
  exact View.ld_unit_zero (funext fun a => by fin_cases a <;> rfl) inb X

/-- An index of the row lies in the one-lane rectangle at lane `b` exactly when its lane is `b`. -/
private theorem KPiecesBC_mem_lane (y : S1x128.Idx) (b : ℕ)
    (inb : ∀ a, (![0, b] : Fin 2 → ℕ) a + (![1, 1] : Fin 2 → ℕ) a ≤ S1x128.size a) :
    y ∈ (Rect.unit (s := S1x128) ![0, b] ![1, 1] inb).set ↔ (y 1).val = b := by
  have h0 : (y 0).val < 1 := idx2_lt0 y
  rw [Rect.mem_set_unit, Fin.forall_fin_two]
  show ((0 ≤ (y 0).val ∧ (y 0).val < 0 + 1) ∧ (b ≤ (y 1).val ∧ (y 1).val < b + 1)) ↔ (y 1).val = b
  omega

/-- The store into lane `b` of a carried row held at `xs`: the lane's old value plus the block's total for bin `b`. -/
private abbrev KPiecesBC_pc (m : Memref sig .tc .vmem S1x128 .f32) (h : m.IsWhole) (v : FVec Ideal S2048x128 .f32)
    (bin : IVec S2048x128 32) (xs : Vec Ideal S1x128 .f32) (b : ℕ)
    (inb : ∀ a, (![0, b] : Fin 2 → ℕ) a + S1x1.size a ≤ S1x128.size a) : View.Piece (Elt Ideal) S1x128 .f32 :=
  ⟨Rect.unit ![0, b] ![1, 1] inb,
    laneUpd (View.readAt (Elt Ideal) m.view (Rect.unit (s := S1x128) ![0, b] S1x1.size inb).toLoadRect (h.unread xs)) v bin
      (BitVec.ofNat 32 b)⟩

/-- The value stored into lane `b` is the row step read at that lane: the rectangle's one index sits at lane `b`, where the
    row step adds the block's total for bin `b` to the old value. -/
private theorem KPiecesBC_piece (m : Memref sig .tc .vmem S1x128 .f32) (h : m.IsWhole)
    (v : FVec Ideal S2048x128 .f32) (bin : IVec S2048x128 32) (xs : Vec Ideal S1x128 .f32) (b : ℕ) (hb : b < 15)
    (inb : ∀ a, (![0, b] : Fin 2 → ℕ) a + S1x1.size a ≤ S1x128.size a)
    (x : (KPiecesBC_pc m h v bin xs b inb).1.shape.Idx) :
    (KPiecesBC_pc m h v bin xs b inb).2 x = rowStep v bin xs ((KPiecesBC_pc m h v bin xs b inb).1.emb x) := by
  have hx1 : (x 1).val = 0 := Nat.lt_one_iff.mp (x 1).isLt
  have e1 : (((Rect.unit (s := S1x128) ![0, b] ![1, 1] inb).emb x) 1).val = b := by
    show b + 1 * (x 1).val = b
    omega
  show laneUpd _ v bin (BitVec.ofNat 32 b) x = rowStep v bin xs ((Rect.unit (s := S1x128) ![0, b] ![1, 1] inb).emb x)
  rw [laneUpd_apply]
  unfold rowStep
  rw [e1, if_pos hb]
  exact congrArg (· + blockTot v bin (BitVec.ofNat 32 b)) (congrFun (h.read_unread xs) _)

/-- THE ROW AFTER ONE POINT. Over what the point before left in a carried row, the fifteen one-lane stores leave the row
    step: a lane below fifteen lies under the store of its own lane, whose value is the row step there; a lane from
    fifteen on lies under no store and keeps what it held, as the row step does. -/
private theorem KPiecesBC_row (m : Memref sig .tc .vmem S1x128 .f32) (h : m.IsWhole)
    (v : FVec Ideal S2048x128 .f32) (bin : IVec S2048x128 32) (xs : Vec Ideal S1x128 .f32) :
    m.view.read (Elt Ideal) (m.view.writes (Elt Ideal) (h.unread xs)
      [KPiecesBC_pc m h v bin xs 14 inb_S1x128_S1x1_0_14, KPiecesBC_pc m h v bin xs 13 inb_S1x128_S1x1_0_13,
       KPiecesBC_pc m h v bin xs 12 inb_S1x128_S1x1_0_12, KPiecesBC_pc m h v bin xs 11 inb_S1x128_S1x1_0_11,
       KPiecesBC_pc m h v bin xs 10 inb_S1x128_S1x1_0_10, KPiecesBC_pc m h v bin xs 9 inb_S1x128_S1x1_0_9,
       KPiecesBC_pc m h v bin xs 8 inb_S1x128_S1x1_0_8, KPiecesBC_pc m h v bin xs 7 inb_S1x128_S1x1_0_7,
       KPiecesBC_pc m h v bin xs 6 inb_S1x128_S1x1_0_6, KPiecesBC_pc m h v bin xs 5 inb_S1x128_S1x1_0_5,
       KPiecesBC_pc m h v bin xs 4 inb_S1x128_S1x1_0_4, KPiecesBC_pc m h v bin xs 3 inb_S1x128_S1x1_0_3,
       KPiecesBC_pc m h v bin xs 2 inb_S1x128_S1x1_0_2, KPiecesBC_pc m h v bin xs 1 inb_S1x128_S1x1_0_1,
       KPiecesBC_pc m h v bin xs 0 inb_S1x128_S1x1_0_0])
      = rowStep v bin xs := by
  funext y
  by_cases hy : (y 1).val < 15
  · refine View.read_writes_apply_of_pieces m.view (h.unread xs) (rowStep v bin xs) _ ?_ y ?_
    · intro p hp
      simp only [List.mem_cons, List.not_mem_nil, or_false] at hp
      rcases hp with rfl | rfl | rfl | rfl | rfl | rfl | rfl | rfl | rfl | rfl | rfl | rfl | rfl | rfl | rfl
      all_goals exact fun x => KPiecesBC_piece m h v bin xs _ (by decide) _ x
    · simp only [List.exists_mem_cons_iff, KPiecesBC_mem_lane, List.not_mem_nil, false_and, exists_false, or_false]
      omega
  · rw [View.read_writes_apply_of_forall_not_mem m.view (h.unread xs) y _ ?_]
    · rw [h.read_unread]
      unfold rowStep
      rw [if_neg hy]
    · simp only [List.forall_mem_cons, KPiecesBC_mem_lane, List.not_mem_nil, false_imp_iff, implies_true, and_true]
      omega

/-- A load of the whole carried row reads the row's contents. -/
private theorem KPiecesBC_ldrow (m : Memref sig .tc .vmem S1x128 .f32) (f : m.view.ty.Contents (Elt Ideal))
    (inb : ∀ a, (![0, 0] : Fin 2 → ℕ) a + S1x128.size a ≤ S1x128.size a) :
    View.readAt (Elt Ideal) m.view (Rect.unit (s := S1x128) ![0, 0] ![1, 128] inb).toLoadRect f
      = m.view.read (Elt Ideal) f := by
  rw [View.readAt_eq_ld]
  exact View.ld_unit_zero (S := S1x128) (funext fun a => by fin_cases a <;> rfl) inb _

theorem sout0_B_0_eq (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x1 .f32) (harg5 : arg5.IsWhole) (arg6 : Memref sig .tc .vmem S1x128 .f32) (harg6 : arg6.IsWhole) (arg7 : Memref sig .tc .vmem S1x128 .f32) (harg7 : arg7.IsWhole) (hc0 : ¬cond0_0 i) (hc1 : ¬cond0_1 i) (x0 x1 x2 x3 : Vec Ideal S2048x128 .f32) (xs0 xs1 : Vec Ideal S1x128 .f32) :
    sout0_B_0 (F := Ideal) c i arg1 harg1 arg2 harg2 arg3 harg3 arg4 harg4 arg5 harg5 arg6 harg6 arg7 harg7 hc0 hc1 x0 x1 x2 x3 xs0 xs1 = rowStep (cwV x1 x2) (binV x1 x2) xs0 := by
  unfold sout0_B_0
  unfold kernelRun0_B
  dsimp only
  sl_unfold_words
  rw [KPiecesBC_whole arg2 harg2 x1, KPiecesBC_whole arg3 harg3 x2]
  rw [payC_14, payC_13, payC_12, payC_11, payC_10, payC_9, payC_8, payC_7, payC_6, payC_5, payC_4, payC_3, payC_2, payC_1,
    payC_0]
  exact KPiecesBC_row arg6 harg6 (cwV x1 x2) (binV x1 x2) xs0

theorem sout0_B_1_eq (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x1 .f32) (harg5 : arg5.IsWhole) (arg6 : Memref sig .tc .vmem S1x128 .f32) (harg6 : arg6.IsWhole) (arg7 : Memref sig .tc .vmem S1x128 .f32) (harg7 : arg7.IsWhole) (hc0 : ¬cond0_0 i) (hc1 : ¬cond0_1 i) (x0 x1 x2 x3 : Vec Ideal S2048x128 .f32) (xs0 xs1 : Vec Ideal S1x128 .f32) :
    sout0_B_1 (F := Ideal) c i arg1 harg1 arg2 harg2 arg3 harg3 arg4 harg4 arg5 harg5 arg6 harg6 arg7 harg7 hc0 hc1 x0 x1 x2 x3 xs0 xs1 = rowStep (awV x0 x1 x2 x3) (binV x1 x2) xs1 := by
  unfold sout0_B_1
  unfold kernelRun0_B
  dsimp only
  sl_unfold_words
  rw [KPiecesBC_whole arg1 harg1 x0, KPiecesBC_whole arg2 harg2 x1, KPiecesBC_whole arg3 harg3 x2,
    KPiecesBC_whole arg4 harg4 x3]
  rw [payA_14, payA_13, payA_12, payA_11, payA_10, payA_9, payA_8, payA_7, payA_6, payA_5, payA_4, payA_3, payA_2, payA_1,
    payA_0]
  exact KPiecesBC_row arg7 harg7 (awV x0 x1 x2 x3) (binV x1 x2) xs1

theorem sout0_C_0_eq (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x1 .f32) (harg5 : arg5.IsWhole) (arg6 : Memref sig .tc .vmem S1x128 .f32) (harg6 : arg6.IsWhole) (arg7 : Memref sig .tc .vmem S1x128 .f32) (harg7 : arg7.IsWhole) (hc0 : ¬cond0_0 i) (hc1 : cond0_1 i) (x0 x1 x2 x3 : Vec Ideal S2048x128 .f32) (xs0 xs1 : Vec Ideal S1x128 .f32) :
    sout0_C_0 (F := Ideal) c i arg1 harg1 arg2 harg2 arg3 harg3 arg4 harg4 arg5 harg5 arg6 harg6 arg7 harg7 hc0 hc1 x0 x1 x2 x3 xs0 xs1 = rowStep (cwV x1 x2) (binV x1 x2) xs0 := by
  unfold sout0_C_0
  unfold kernelRun0_C
  dsimp only
  sl_unfold_words
  rw [KPiecesBC_whole arg2 harg2 x1, KPiecesBC_whole arg3 harg3 x2]
  rw [payC_14, payC_13, payC_12, payC_11, payC_10, payC_9, payC_8, payC_7, payC_6, payC_5, payC_4, payC_3, payC_2, payC_1,
    payC_0]
  exact KPiecesBC_row arg6 harg6 (cwV x1 x2) (binV x1 x2) xs0

theorem sout0_C_1_eq (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x1 .f32) (harg5 : arg5.IsWhole) (arg6 : Memref sig .tc .vmem S1x128 .f32) (harg6 : arg6.IsWhole) (arg7 : Memref sig .tc .vmem S1x128 .f32) (harg7 : arg7.IsWhole) (hc0 : ¬cond0_0 i) (hc1 : cond0_1 i) (x0 x1 x2 x3 : Vec Ideal S2048x128 .f32) (xs0 xs1 : Vec Ideal S1x128 .f32) :
    sout0_C_1 (F := Ideal) c i arg1 harg1 arg2 harg2 arg3 harg3 arg4 harg4 arg5 harg5 arg6 harg6 arg7 harg7 hc0 hc1 x0 x1 x2 x3 xs0 xs1 = rowStep (awV x0 x1 x2 x3) (binV x1 x2) xs1 := by
  unfold sout0_C_1
  unfold kernelRun0_C
  dsimp only
  sl_unfold_words
  rw [KPiecesBC_whole arg1 harg1 x0, KPiecesBC_whole arg2 harg2 x1, KPiecesBC_whole arg3 harg3 x2,
    KPiecesBC_whole arg4 harg4 x3]
  rw [payA_14, payA_13, payA_12, payA_11, payA_10, payA_9, payA_8, payA_7, payA_6, payA_5, payA_4, payA_3, payA_2, payA_1,
    payA_0]
  exact KPiecesBC_row arg7 harg7 (awV x0 x1 x2 x3) (binV x1 x2) xs1

theorem out0_C_4_eq (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x1 .f32) (harg5 : arg5.IsWhole) (arg6 : Memref sig .tc .vmem S1x128 .f32) (harg6 : arg6.IsWhole) (arg7 : Memref sig .tc .vmem S1x128 .f32) (harg7 : arg7.IsWhole) (hc0 : ¬cond0_0 i) (hc1 : cond0_1 i) (x0 x1 x2 x3 : Vec Ideal S2048x128 .f32) (xs0 xs1 : Vec Ideal S1x128 .f32) :
    out0_C_4 (F := Ideal) c i arg1 harg1 arg2 harg2 arg3 harg3 arg4 harg4 arg5 harg5 arg6 harg6 arg7 harg7 hc0 hc1 x0 x1 x2 x3 xs0 xs1
      = fun _ => laneGap (rowStep (cwV x1 x2) (binV x1 x2) xs0) (rowStep (awV x0 x1 x2 x3) (binV x1 x2) xs1) := by
  unfold out0_C_4
  rw [View.read_writes_junk_eq_canon]
  unfold kernelRun0_C
  dsimp only
  sl_unfold_words
  rw [View.canon_unit_zero (S := S1x1) (funext fun a => by fin_cases a <;> rfl)]
  funext x
  refine (gap_apply _ _ x).trans (congrArg₂ laneGap ?_ ?_)
  · rw [KPiecesBC_ldrow arg6, KPiecesBC_whole arg2 harg2 x1, KPiecesBC_whole arg3 harg3 x2]
    rw [payC_14, payC_13, payC_12, payC_11, payC_10, payC_9, payC_8, payC_7, payC_6, payC_5, payC_4, payC_3, payC_2,
      payC_1, payC_0]
    exact KPiecesBC_row arg6 harg6 (cwV x1 x2) (binV x1 x2) xs0
  · rw [KPiecesBC_ldrow arg7, KPiecesBC_whole arg1 harg1 x0, KPiecesBC_whole arg2 harg2 x1, KPiecesBC_whole arg3 harg3 x2,
      KPiecesBC_whole arg4 harg4 x3]
    rw [payA_14, payA_13, payA_12, payA_11, payA_10, payA_9, payA_8, payA_7, payA_6, payA_5, payA_4, payA_3, payA_2,
      payA_1, payA_0]
    exact KPiecesBC_row arg7 harg7 (awV x0 x1 x2 x3) (binV x1 x2) xs1

end Cert.KernelIdeal.Hand

end
-- ==== Proof.KBlocks.lean ====
/-
  Where a block sits in its array: the four inputs reach the kernel reshaped to 131072 rows of 128 lanes, and grid
  point t takes rows 2048 · t … 2048 · t + 2047, so entry (r, l) of block t is sample 128 · (2048 · t + r) + l.
-/
import proofs.«140573_j48258252538340_1_alg».proof.Proof.Spec
import proofs.«140573_j48258252538340_1_alg».proof.Proof.Gen.KernelIdeal.Frame
import Idealize.ShloMosaic.Lib.Pipeline.Value
import Idealize.ShloMosaic.Lib.Pipeline.CanonAppend
import Idealize.ShloMosaic.Lib.WritesUnit
import Idealize.ShloMosaic.Lib.StableHlo.Run

set_option maxRecDepth 16384

noncomputable section

namespace Cert.KernelIdeal.Hand

open Idealize.ShloMosaic Idealize.ShloMosaic.ValueIdx Idealize.ShloMosaic.TcCoe Idealize.ShloMosaic.Tactic
open Idealize.SL Idealize.SL.Sem
open Cert.KernelIdeal Cert.KernelIdeal.Gen Cert.Calib

variable (m : (ℓ : Loc nD τ sig) → Buf (Elt Ideal) ℓ)

theorem lt64 (t : Fin cfg0.N) : t.val < 64 := lt_of_lt_of_eq t.isLt (show cfg0.N = 64 from N_0)

/-- The four input blocks of point `t`, at their literal type. -/
abbrev blk0 (c : Dev nD) (t : Fin cfg0.N) : Vec Ideal S2048x128 .f32 := iblk m c 0 t
abbrev blk1 (c : Dev nD) (t : Fin cfg0.N) : Vec Ideal S2048x128 .f32 := iblk m c 1 t
abbrev blk2 (c : Dev nD) (t : Fin cfg0.N) : Vec Ideal S2048x128 .f32 := iblk m c 2 t
abbrev blk3 (c : Dev nD) (t : Fin cfg0.N) : Vec Ideal S2048x128 .f32 := iblk m c 3 t

/-- The four arguments as the launch finds them, at their literal type. -/
abbrev arr0 (c : Dev nD) : (⟨S16777216, .f32⟩ : BufTy).Contents (Elt Ideal) := m ((c.tc : Thread nD τ).loc main_arg0)
abbrev arr1 (c : Dev nD) : (⟨S16777216, .f32⟩ : BufTy).Contents (Elt Ideal) := m ((c.tc : Thread nD τ).loc main_arg1)
abbrev arr2 (c : Dev nD) : (⟨S16777216, .f32⟩ : BufTy).Contents (Elt Ideal) := m ((c.tc : Thread nD τ).loc main_arg2)
abbrev arr3 (c : Dev nD) : (⟨S16777216, .f32⟩ : BufTy).Contents (Elt Ideal) := m ((c.tc : Thread nD τ).loc main_arg3)

/-- Window 0's index map at grid point `t`: block row `t`, block column 0. -/
private theorem KBlocks_idx0 : ∀ t : Fin cfg0.N, win0_0.index t (0 : Fin 2) = t.val ∧ win0_0.index t (1 : Fin 2) = 0 :=
  (by decide +kernel : ∀ t : Fin grid0.N, _)

/-- What the region finds in window 0's array: argument 0, its 16,777,216 samples laid out as 131072 rows of 128. -/
private theorem KBlocks_V0 (c : Dev nD) :
    (V m c main_v0 : S131072x128.Idx → EReal) = shapeCast S131072x128 (arr0 m c) shapeCasts_S16777216_S131072x128 := by
  show StableHlo.after hostOps0 (fun b => m (c, b)) (Proc.devRef .tc main_v0) = _
  after_results
  rfl

theorem blk0_eq (c : Dev nD) (t : Fin cfg0.N) : blk0 m c t = blkOf (arr0 m c) t.val (lt64 t) := by
  funext y
  show V m c main_v0 (((cfg0.win 0).blk t).view.emb y) = _
  rw [KBlocks_V0]
  obtain ⟨e0, e1⟩ := KBlocks_idx0 t
  unfold blkOf
  -- row-major position of (2048 · t + r, l) among 131072 × 128 is 128 · (2048 · t + r) + l
  refine shapeCast_apply _ _ _ _ ?_
  rw [Shape.rowMajor_val_one, Shape.rowMajor_val_two]
  show 128 * (2048 * t.val + (y 0).val) + (y 1).val
      = (win0_0.index t (0 : Fin 2) * 2048 + 1 * (y 0).val) * 128 + (win0_0.index t (1 : Fin 2) * 128 + 1 * (y 1).val)
  rw [e0, e1]
  omega

/-- Window 1's index map at grid point `t`: block row `t`, block column 0. -/
private theorem KBlocks_idx1 : ∀ t : Fin cfg0.N, win0_1.index t (0 : Fin 2) = t.val ∧ win0_1.index t (1 : Fin 2) = 0 :=
  (by decide +kernel : ∀ t : Fin grid0.N, _)

/-- What the region finds in window 1's array: argument 1, its 16,777,216 samples laid out as 131072 rows of 128. -/
private theorem KBlocks_V1 (c : Dev nD) :
    (V m c main_v1 : S131072x128.Idx → EReal) = shapeCast S131072x128 (arr1 m c) shapeCasts_S16777216_S131072x128 := by
  show StableHlo.after hostOps0 (fun b => m (c, b)) (Proc.devRef .tc main_v1) = _
  after_results
  rfl

theorem blk1_eq (c : Dev nD) (t : Fin cfg0.N) : blk1 m c t = blkOf (arr1 m c) t.val (lt64 t) := by
  funext y
  show V m c main_v1 (((cfg0.win 1).blk t).view.emb y) = _
  rw [KBlocks_V1]
  obtain ⟨e0, e1⟩ := KBlocks_idx1 t
  unfold blkOf
  -- row-major position of (2048 · t + r, l) among 131072 × 128 is 128 · (2048 · t + r) + l
  refine shapeCast_apply _ _ _ _ ?_
  rw [Shape.rowMajor_val_one, Shape.rowMajor_val_two]
  show 128 * (2048 * t.val + (y 0).val) + (y 1).val
      = (win0_1.index t (0 : Fin 2) * 2048 + 1 * (y 0).val) * 128 + (win0_1.index t (1 : Fin 2) * 128 + 1 * (y 1).val)
  rw [e0, e1]
  omega

/-- Window 2's index map at grid point `t`: block row `t`, block column 0. -/
private theorem KBlocks_idx2 : ∀ t : Fin cfg0.N, win0_2.index t (0 : Fin 2) = t.val ∧ win0_2.index t (1 : Fin 2) = 0 :=
  (by decide +kernel : ∀ t : Fin grid0.N, _)

/-- What the region finds in window 2's array: argument 2, its 16,777,216 samples laid out as 131072 rows of 128. -/
private theorem KBlocks_V2 (c : Dev nD) :
    (V m c main_v2 : S131072x128.Idx → EReal) = shapeCast S131072x128 (arr2 m c) shapeCasts_S16777216_S131072x128 := by
  show StableHlo.after hostOps0 (fun b => m (c, b)) (Proc.devRef .tc main_v2) = _
  after_results
  rfl

theorem blk2_eq (c : Dev nD) (t : Fin cfg0.N) : blk2 m c t = blkOf (arr2 m c) t.val (lt64 t) := by
  funext y
  show V m c main_v2 (((cfg0.win 2).blk t).view.emb y) = _
  rw [KBlocks_V2]
  obtain ⟨e0, e1⟩ := KBlocks_idx2 t
  unfold blkOf
  -- row-major position of (2048 · t + r, l) among 131072 × 128 is 128 · (2048 · t + r) + l
  refine shapeCast_apply _ _ _ _ ?_
  rw [Shape.rowMajor_val_one, Shape.rowMajor_val_two]
  show 128 * (2048 * t.val + (y 0).val) + (y 1).val
      = (win0_2.index t (0 : Fin 2) * 2048 + 1 * (y 0).val) * 128 + (win0_2.index t (1 : Fin 2) * 128 + 1 * (y 1).val)
  rw [e0, e1]
  omega

/-- Window 3's index map at grid point `t`: block row `t`, block column 0. -/
private theorem KBlocks_idx3 : ∀ t : Fin cfg0.N, win0_3.index t (0 : Fin 2) = t.val ∧ win0_3.index t (1 : Fin 2) = 0 :=
  (by decide +kernel : ∀ t : Fin grid0.N, _)

/-- What the region finds in window 3's array: argument 3, its 16,777,216 samples laid out as 131072 rows of 128. -/
private theorem KBlocks_V3 (c : Dev nD) :
    (V m c main_v3 : S131072x128.Idx → EReal) = shapeCast S131072x128 (arr3 m c) shapeCasts_S16777216_S131072x128 := by
  show StableHlo.after hostOps0 (fun b => m (c, b)) (Proc.devRef .tc main_v3) = _
  after_results
  rfl

theorem blk3_eq (c : Dev nD) (t : Fin cfg0.N) : blk3 m c t = blkOf (arr3 m c) t.val (lt64 t) := by
  funext y
  show V m c main_v3 (((cfg0.win 3).blk t).view.emb y) = _
  rw [KBlocks_V3]
  obtain ⟨e0, e1⟩ := KBlocks_idx3 t
  unfold blkOf
  -- row-major position of (2048 · t + r, l) among 131072 × 128 is 128 · (2048 · t + r) + l
  refine shapeCast_apply _ _ _ _ ?_
  rw [Shape.rowMajor_val_one, Shape.rowMajor_val_two]
  show 128 * (2048 * t.val + (y 0).val) + (y 1).val
      = (win0_3.index t (0 : Fin 2) * 2048 + 1 * (y 0).val) * 128 + (win0_3.index t (1 : Fin 2) * 128 + 1 * (y 1).val)
  rw [e0, e1]
  omega

end Cert.KernelIdeal.Hand

end
-- ==== Proof.KAccum.lean ====
/-
  The carried rows point by point: after grid point n the first row is Spec.lean's carried row after blocks 0 … n of
  the weighted confidences, the second that of the weighted accuracies (induction on the point: the first point starts
  from zero, every later one steps from the point before); the last point's output block is the gap of the two.
-/
import proofs.«140573_j48258252538340_1_alg».proof.Proof.KPiecesA
import proofs.«140573_j48258252538340_1_alg».proof.Proof.KPiecesBC
import proofs.«140573_j48258252538340_1_alg».proof.Proof.KBlocks
import Idealize.ShloMosaic.Lib.Pipeline.Value
import Idealize.ShloMosaic.Lib.Pipeline.CanonAppend
import Idealize.ShloMosaic.Lib.WritesUnit

set_option maxRecDepth 16384

noncomputable section

namespace Cert.KernelIdeal.Hand

open Idealize.ShloMosaic Idealize.ShloMosaic.ValueIdx Idealize.ShloMosaic.TcCoe Idealize.ShloMosaic.Tactic
open Idealize.SL Idealize.SL.Sem
open Cert.KernelIdeal Cert.KernelIdeal.Gen Cert.Calib

variable (m : (ℓ : Loc nD τ sig) → Buf (Elt Ideal) ℓ)

/-- The per-block vectors by the block's number (zero past the grid, where nothing reads them). -/
def cwN (c : Dev nD) : ℕ → SBlk.Idx → EReal := fun n =>
  if h : n < cfg0.N then cwV (blk1 m c ⟨n, h⟩) (blk2 m c ⟨n, h⟩) else fun _ => 0
def awN (c : Dev nD) : ℕ → SBlk.Idx → EReal := fun n =>
  if h : n < cfg0.N then awV (blk0 m c ⟨n, h⟩) (blk1 m c ⟨n, h⟩) (blk2 m c ⟨n, h⟩) (blk3 m c ⟨n, h⟩) else fun _ => 0
def binN (c : Dev nD) : ℕ → SBlk.Idx → BitVec 32 := fun n =>
  if h : n < cfg0.N then binV (blk1 m c ⟨n, h⟩) (blk2 m c ⟨n, h⟩) else fun _ => 0#32

/-! The per-block vectors at a point of the grid are the block's own vectors. -/

private theorem KAccum_cwN_eq (c : Dev nD) (n : ℕ) (hn : n < cfg0.N) :
    cwN m c n = cwV (blk1 m c ⟨n, hn⟩) (blk2 m c ⟨n, hn⟩) := by
  unfold cwN; exact dif_pos hn

private theorem KAccum_awN_eq (c : Dev nD) (n : ℕ) (hn : n < cfg0.N) :
    awN m c n = awV (blk0 m c ⟨n, hn⟩) (blk1 m c ⟨n, hn⟩) (blk2 m c ⟨n, hn⟩) (blk3 m c ⟨n, hn⟩) := by
  unfold awN; exact dif_pos hn

private theorem KAccum_binN_eq (c : Dev nD) (n : ℕ) (hn : n < cfg0.N) :
    binN m c n = binV (blk1 m c ⟨n, hn⟩) (blk2 m c ⟨n, hn⟩) := by
  unfold binN; exact dif_pos hn

/-! One point's rows, case by case: the first point steps from the zero row, every later point from the rows the point
    before left. -/

private theorem KAccum_A0 (c : Dev nD) (t : Fin cfg0.N) (h0 : t.val % 64 = 0) (h1 : ¬t.val % 64 = 63) :
    (outsAt0 m c t.val t.isLt).2.1 = rowStep (cwV (blk1 m c t) (blk2 m c t)) (binV (blk1 m c t) (blk2 m c t)) (fun _ => 0) := by
  rw [outsAt0_A m c t h0 h1]
  dsimp only
  exact sout0_A_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)

private theorem KAccum_A1 (c : Dev nD) (t : Fin cfg0.N) (h0 : t.val % 64 = 0) (h1 : ¬t.val % 64 = 63) :
    (outsAt0 m c t.val t.isLt).2.2 = rowStep (awV (blk0 m c t) (blk1 m c t) (blk2 m c t) (blk3 m c t)) (binV (blk1 m c t) (blk2 m c t)) (fun _ => 0) := by
  rw [outsAt0_A m c t h0 h1]
  dsimp only
  exact sout0_A_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)

private theorem KAccum_B0 (c : Dev nD) (t : Fin cfg0.N) (h0 : ¬t.val % 64 = 0) (h1 : ¬t.val % 64 = 63) :
    (outsAt0 m c t.val t.isLt).2.1 = rowStep (cwV (blk1 m c t) (blk2 m c t)) (binV (blk1 m c t) (blk2 m c t)) (outsAt0 m c (t.val - 1) (Nat.lt_of_le_of_lt (Nat.sub_le _ _) t.isLt)).2.1 := by
  rw [outsAt0_B m c t h0 h1]
  dsimp only
  exact sout0_B_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

private theorem KAccum_B1 (c : Dev nD) (t : Fin cfg0.N) (h0 : ¬t.val % 64 = 0) (h1 : ¬t.val % 64 = 63) :
    (outsAt0 m c t.val t.isLt).2.2 = rowStep (awV (blk0 m c t) (blk1 m c t) (blk2 m c t) (blk3 m c t)) (binV (blk1 m c t) (blk2 m c t)) (outsAt0 m c (t.val - 1) (Nat.lt_of_le_of_lt (Nat.sub_le _ _) t.isLt)).2.2 := by
  rw [outsAt0_B m c t h0 h1]
  dsimp only
  exact sout0_B_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

private theorem KAccum_C0 (c : Dev nD) (t : Fin cfg0.N) (h0 : ¬t.val % 64 = 0) (h1 : t.val % 64 = 63) :
    (outsAt0 m c t.val t.isLt).2.1 = rowStep (cwV (blk1 m c t) (blk2 m c t)) (binV (blk1 m c t) (blk2 m c t)) (outsAt0 m c (t.val - 1) (Nat.lt_of_le_of_lt (Nat.sub_le _ _) t.isLt)).2.1 := by
  rw [outsAt0_C m c t h0 h1]
  dsimp only
  exact sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

private theorem KAccum_C1 (c : Dev nD) (t : Fin cfg0.N) (h0 : ¬t.val % 64 = 0) (h1 : t.val % 64 = 63) :
    (outsAt0 m c t.val t.isLt).2.2 = rowStep (awV (blk0 m c t) (blk1 m c t) (blk2 m c t) (blk3 m c t)) (binV (blk1 m c t) (blk2 m c t)) (outsAt0 m c (t.val - 1) (Nat.lt_of_le_of_lt (Nat.sub_le _ _) t.isLt)).2.2 := by
  rw [outsAt0_C m c t h0 h1]
  dsimp only
  exact sout0_C_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

private theorem KAccum_C4 (c : Dev nD) (t : Fin cfg0.N) (h0 : ¬t.val % 64 = 0) (h1 : t.val % 64 = 63) :
    (outsAt0 m c t.val t.isLt).1
      = fun _ => laneGap (rowStep (cwV (blk1 m c t) (blk2 m c t)) (binV (blk1 m c t) (blk2 m c t)) (outsAt0 m c (t.val - 1) (Nat.lt_of_le_of_lt (Nat.sub_le _ _) t.isLt)).2.1) (rowStep (awV (blk0 m c t) (blk1 m c t) (blk2 m c t) (blk3 m c t)) (binV (blk1 m c t) (blk2 m c t)) (outsAt0 m c (t.val - 1) (Nat.lt_of_le_of_lt (Nat.sub_le _ _) t.isLt)).2.2) := by
  rw [outsAt0_C m c t h0 h1]
  dsimp only
  exact out0_C_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

/-! The same steps by the point's number: point n + 1 steps from point n. -/

private theorem KAccum_stepB (c : Dev nD) (n : ℕ) (hn : n + 1 < cfg0.N) (h63 : ¬n + 1 = 63) :
    (outsAt0 m c (n + 1) hn).2.1
        = rowStep (cwN m c (n + 1)) (binN m c (n + 1)) (outsAt0 m c n (Nat.lt_of_succ_lt hn)).2.1
      ∧ (outsAt0 m c (n + 1) hn).2.2
        = rowStep (awN m c (n + 1)) (binN m c (n + 1)) (outsAt0 m c n (Nat.lt_of_succ_lt hn)).2.2 := by
  have hN : n + 1 < 64 := lt_of_lt_of_eq hn N_0
  have h0 : ¬(⟨n + 1, hn⟩ : Fin cfg0.N).val % 64 = 0 := by
    show ¬(n + 1) % 64 = 0
    omega
  have h1 : ¬(⟨n + 1, hn⟩ : Fin cfg0.N).val % 64 = 63 := by
    show ¬(n + 1) % 64 = 63
    omega
  rw [KAccum_cwN_eq m c (n + 1) hn, KAccum_awN_eq m c (n + 1) hn, KAccum_binN_eq m c (n + 1) hn]
  exact ⟨KAccum_B0 m c ⟨n + 1, hn⟩ h0 h1, KAccum_B1 m c ⟨n + 1, hn⟩ h0 h1⟩

private theorem KAccum_stepC (c : Dev nD) (n : ℕ) (hn : n + 1 < cfg0.N) (h63 : n + 1 = 63) :
    (outsAt0 m c (n + 1) hn).1
        = (fun _ => laneGap
            (rowStep (cwN m c (n + 1)) (binN m c (n + 1)) (outsAt0 m c n (Nat.lt_of_succ_lt hn)).2.1)
            (rowStep (awN m c (n + 1)) (binN m c (n + 1)) (outsAt0 m c n (Nat.lt_of_succ_lt hn)).2.2))
      ∧ (outsAt0 m c (n + 1) hn).2.1
        = rowStep (cwN m c (n + 1)) (binN m c (n + 1)) (outsAt0 m c n (Nat.lt_of_succ_lt hn)).2.1
      ∧ (outsAt0 m c (n + 1) hn).2.2
        = rowStep (awN m c (n + 1)) (binN m c (n + 1)) (outsAt0 m c n (Nat.lt_of_succ_lt hn)).2.2 := by
  have h0 : ¬(⟨n + 1, hn⟩ : Fin cfg0.N).val % 64 = 0 := by
    show ¬(n + 1) % 64 = 0
    omega
  have h1 : (⟨n + 1, hn⟩ : Fin cfg0.N).val % 64 = 63 := by
    show (n + 1) % 64 = 63
    omega
  rw [KAccum_cwN_eq m c (n + 1) hn, KAccum_awN_eq m c (n + 1) hn, KAccum_binN_eq m c (n + 1) hn]
  exact ⟨KAccum_C4 m c ⟨n + 1, hn⟩ h0 h1, KAccum_C0 m c ⟨n + 1, hn⟩ h0 h1, KAccum_C1 m c ⟨n + 1, hn⟩ h0 h1⟩

/-- Both rows together, by induction on the point: each row's step reads the row the point before left. -/
private theorem KAccum_rows (c : Dev nD) : ∀ (n : ℕ) (hn : n < cfg0.N),
    (outsAt0 m c n hn).2.1 = rowAfter (cwN m c) (binN m c) n
      ∧ (outsAt0 m c n hn).2.2 = rowAfter (awN m c) (binN m c) n := by
  intro n
  induction n with
  | zero =>
    intro hn
    have h1 : ¬(⟨0, hn⟩ : Fin cfg0.N).val % 64 = 63 := by
      show ¬0 % 64 = 63
      decide
    have e0 := KAccum_A0 m c ⟨0, hn⟩ rfl h1
    have e1 := KAccum_A1 m c ⟨0, hn⟩ rfl h1
    rw [← KAccum_cwN_eq m c 0 hn, ← KAccum_binN_eq m c 0 hn] at e0
    rw [← KAccum_awN_eq m c 0 hn, ← KAccum_binN_eq m c 0 hn] at e1
    exact ⟨e0, e1⟩
  | succ n ih =>
    intro hn
    obtain ⟨ih0, ih1⟩ := ih (Nat.lt_of_succ_lt hn)
    by_cases h63 : n + 1 = 63
    · obtain ⟨-, e0, e1⟩ := KAccum_stepC m c n hn h63
      exact ⟨e0.trans (congrArg (rowStep (cwN m c (n + 1)) (binN m c (n + 1))) ih0),
        e1.trans (congrArg (rowStep (awN m c (n + 1)) (binN m c (n + 1))) ih1)⟩
    · obtain ⟨e0, e1⟩ := KAccum_stepB m c n hn h63
      exact ⟨e0.trans (congrArg (rowStep (cwN m c (n + 1)) (binN m c (n + 1))) ih0),
        e1.trans (congrArg (rowStep (awN m c (n + 1)) (binN m c (n + 1))) ih1)⟩

theorem outs_row0 (c : Dev nD) (n : ℕ) (hn : n < cfg0.N) :
    (outsAt0 m c n hn).2.1 = rowAfter (cwN m c) (binN m c) n :=
  (KAccum_rows m c n hn).1

theorem outs_row1 (c : Dev nD) (n : ℕ) (hn : n < cfg0.N) :
    (outsAt0 m c n hn).2.2 = rowAfter (awN m c) (binN m c) n :=
  (KAccum_rows m c n hn).2

theorem outs_out (c : Dev nD) (hn : 63 < cfg0.N) :
    (outsAt0 m c 63 hn).1
      = fun _ => laneGap (rowAfter (cwN m c) (binN m c) 63) (rowAfter (awN m c) (binN m c) 63) := by
  obtain ⟨e, -, -⟩ := KAccum_stepC m c 62 hn rfl
  refine e.trans ?_
  rw [outs_row0 m c 62 (Nat.lt_of_succ_lt hn), outs_row1 m c 62 (Nat.lt_of_succ_lt hn)]
  rfl

end Cert.KernelIdeal.Hand

end
-- ==== Proof.KRun.lean ====
/-
  The kernel's run with its result named. The output window is written back once, after the last grid point, and holds
  the gap between the two carried rows after all 64 blocks; the host then drops the two unit axes and divides by the
  number of samples. By the laws of the sums the gap is the sum over the fifteen bins of the absolute difference of the
  per-bin totals over all samples, so the result is Spec.lean's `ece` of the four arguments.
-/
import proofs.«140573_j48258252538340_1_alg».proof.Proof.KAccum
import proofs.«140573_j48258252538340_1_alg».proof.Proof.KBlocks
import proofs.«140573_j48258252538340_1_alg».proof.Proof.KPoint
import proofs.«140573_j48258252538340_1_alg».proof.Proof.SpecLaws
import Idealize.ShloMosaic.Lib.Pipeline.Value
import Idealize.ShloMosaic.Lib.StableHlo.Run

set_option maxRecDepth 16384

noncomputable section

namespace Cert.KernelIdeal.Hand

open Idealize.ShloMosaic Idealize.ShloMosaic.ValueIdx Idealize.ShloMosaic.TcCoe Idealize.ShloMosaic.Tactic
open Idealize.SL Idealize.SL.Sem
open Cert.KernelIdeal Cert.KernelIdeal.Gen Cert.Calib

variable (m : (ℓ : Loc nD τ sig) → Buf (Elt Ideal) ℓ) (ρ : Dev nD → PrngReg)

/-- The gap between the two carried rows after all 64 blocks. -/
def gapAll (c : Dev nD) : EReal :=
  laneGap (rowAfter (cwN m c) (binN m c) 63) (rowAfter (awN m c) (binN m c) 63)

/-! ## The per-block vectors are blocks of the per-sample functions -/

theorem ltN (t : Fin 64) : t.val < cfg0.N := lt_of_lt_of_eq t.isLt (show cfg0.N = 64 from N_0).symm

theorem cwN_eq (c : Dev nD) (t : Fin 64) :
    cwN m c t.val = blkOf (fun j => cwS (arr1 m c j) (arr2 m c j)) t.val t.isLt := by
  unfold cwN
  rw [dif_pos (ltN t), cwV_eq, blk1_eq, blk2_eq]
  rfl

theorem awN_eq (c : Dev nD) (t : Fin 64) :
    awN m c t.val = blkOf (fun j => awS (arr0 m c j) (arr3 m c j) (arr1 m c j) (arr2 m c j)) t.val t.isLt := by
  unfold awN
  rw [dif_pos (ltN t), awV_eq, blk0_eq, blk1_eq, blk2_eq, blk3_eq]
  rfl

theorem binN_eq (c : Dev nD) (t : Fin 64) :
    binN m c t.val = blkOf (fun j => binS (arr1 m c j) (arr2 m c j)) t.val t.isLt := by
  unfold binN
  rw [dif_pos (ltN t), binV_eq, blk1_eq, blk2_eq]
  rfl

/-- The gap over the result's divisor is the result. -/
theorem sumBlocks_cw (c : Dev nD) (b : BitVec 32) :
    ∑ t : Fin 64, blockTot (cwN m c t.val) (binN m c t.val) b
      = binTot (fun j => cwS (arr1 m c j) (arr2 m c j)) (fun j => binS (arr1 m c j) (arr2 m c j)) b := by
  rw [← sum_blocks_eq_binTot]
  exact Finset.sum_congr rfl fun t _ => by rw [cwN_eq, binN_eq]

theorem sumBlocks_aw (c : Dev nD) (b : BitVec 32) :
    ∑ t : Fin 64, blockTot (awN m c t.val) (binN m c t.val) b
      = binTot (fun j => awS (arr0 m c j) (arr3 m c j) (arr1 m c j) (arr2 m c j)) (fun j => binS (arr1 m c j) (arr2 m c j)) b := by
  rw [← sum_blocks_eq_binTot]
  exact Finset.sum_congr rfl fun t _ => by rw [awN_eq, binN_eq]

/-- The gap over the result's divisor is the result. -/
theorem gapAll_div (c : Dev nD) :
    Ideal.div (gapAll m c) fCount = ece (arr0 m c) (arr1 m c) (arr2 m c) (arr3 m c) := by
  unfold gapAll ece
  rw [laneGap_rowAfter]
  simp only [sumBlocks_cw, sumBlocks_aw]

/-! ## The output window's array after the run -/

/-- Only the last point writes the output block back. -/
theorem flush4_only : ∀ t : Fin cfg0.N, (cfg0.win 4).flush t = true → t.val = 63 :=
  (by decide +kernel : ∀ t : Fin grid0.N, (cfg0.win 4).flush t = true → t.val = 63)
theorem flush4_last : ∀ t : Fin cfg0.N, t.val = 63 → (cfg0.win 4).flush t = true :=
  (by decide +kernel : ∀ t : Fin grid0.N, t.val = 63 → (cfg0.win 4).flush t = true)
/-- The output's block index is (0, 0) at every point: its one block is its whole array. -/
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- What the last point writes back is the block of the constant array at the gap. -/
theorem flushed4_eq (c : Dev nD) (t : Fin cfg0.N) (hf : (cfg0.win 4).flush t = true) :
    (dats m 0 c).flushed 4 t = ((cfg0.win 4).blk t).view.read (Elt Ideal) (fun _ => gapAll m c) := by
  show (cfg0.win 4).cut (grid0.coords t) ((dats m 0 c).after 4 t) = _
  rw [after0_4]
  have h63 := flush4_only t hf
  obtain ⟨n, hn⟩ := t
  simp only at h63
  subst h63
  rw [outs_out m c hn]
  rfl

/-- The output array ends holding the gap. -/
theorem final4 (c : Dev nD) : (dats m 0 c).arrAt 4 cfg0.N = fun _ => gapAll m c := by
  refine (dats m 0 c).arrAt_eq_of_cover 4 (fun _ => gapAll m c) (fun t hf => flushed4_eq m c t hf) fun i => ?_
  have h63 : 63 < cfg0.N := by rw [show cfg0.N = 64 from N_0]; decide
  refine ⟨⟨63, h63⟩, flush4_last _ rfl, ?_⟩
  show i ∈ ((View.whole main_v4).slice (win0_4.rect ⟨63, h63⟩)).set
  rw [View.set_slice_whole, Rect.mem_set_unit]
  obtain ⟨e0, e1⟩ := idx4 ⟨63, h63⟩
  intro a
  match a with
  | ⟨0, _⟩ =>
    show win0_4.index ⟨63, h63⟩ (0 : Fin 2) * 1 ≤ (i 0).val ∧ (i 0).val < win0_4.index ⟨63, h63⟩ (0 : Fin 2) * 1 + 1
    have hi : (i 0).val < 1 := (i 0).isLt
    omega
  | ⟨1, _⟩ =>
    show win0_4.index ⟨63, h63⟩ (1 : Fin 2) * 1 ≤ (i 1).val ∧ (i 1).val < win0_4.index ⟨63, h63⟩ (1 : Fin 2) * 1 + 1
    have hi : (i 1).val < 1 := (i 1).isLt
    omega

/-! ## The host tail and the run -/

/-- After the region the host reshapes the 1×1 output to a scalar and divides it by the number of samples. -/
theorem tail6 (c : Dev nD) :
    Pipeline.afterTail₀ cfgs (dats m) 0 (V0 m) [hostOps1] c main_v6
      = fun _ => ece (arr0 m c) (arr1 m c) (arr2 m c) (arr3 m c) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v4)
      = fun _ => gapAll m c :=
    (Pipeline.withArrays_arr spec0 launch0.win.arr_inj c _ _ 4).trans (final4 m c)
  rw [hw]
  funext x
  exact gapAll_div m c

/-- THE KERNEL'S RUN: every weakly fair execution terminates with the result at `ece` of the four arguments, the
    arguments unchanged. -/
theorem run_value : θ_run (defs (F := Ideal)) (onTc (τ := τ) (main (F := Ideal))) ⟨m, fun _ => 0, ρ⟩ (fun r => ∀ c : Dev nD,
      r.2.mem ((c.tc : Thread nD τ).loc main_v6) = (fun _ => ece (arr0 m c) (arr1 m c) (arr2 m c) (arr3 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v6 (Pipeline.mem_restRefs_of main_v6 (by decide) (by decide))).trans (tail6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.RefValue.lean ====
/-
  The reference's result in closed form. Stage by stage it computes, per sample, the weighted confidence, the weighted
  accuracy and the bin of Spec.lean; its two scatter-adds put into bin b the sum of the updates whose index word is b
  (every bin word lies in 0 … 14, so none is dropped); then the absolute differences are summed over the fifteen bins and
  divided by the number of samples.
-/
import proofs.«140573_j48258252538340_1_alg».proof.Proof.Spec
import proofs.«140573_j48258252538340_1_alg».proof.Proof.SpecLaws
import proofs.«140573_j48258252538340_1_alg».proof.Proof.Gen.ReferenceIdeal.Read

noncomputable section

namespace Cert.ReferenceIdeal.Hand

open Idealize.ShloMosaic Idealize.ShloMosaic.ValueIdx Cert.ReferenceIdeal Cert.ReferenceIdeal.Gen Cert.ReferenceIdeal.Read Cert.Calib

/-! ## The per-sample stages -/

/-- The confidence stage: 1 / (1 + beta / ((alpha - 1) + eps)). -/
theorem refValue_conf (a1 a2 : (⟨S16777216, .f32⟩ : BufTy).Contents (Elt Ideal)) (j : S16777216.Idx) :
    val_main_v10 (F := Ideal) a1 a2 j = confS (a1 j) (a2 j) := by
  rw [val_main_v10_apply, val_main_v9_apply, val_main_v8_apply, val_main_v7_apply, val_main_v6_apply,
    val_main_v5_apply, val_main_v4_apply, val_main_v3_apply, val_main_v2_apply]
  rfl

/-- The accuracy stage: 1 - min 1 (max 0 (|target - gamma| / 2)). -/
theorem refValue_acc (a0 a3 : (⟨S16777216, .f32⟩ : BufTy).Contents (Elt Ideal)) (j : S16777216.Idx) :
    val_main_v15 (F := Ideal) a0 a3 j = accS (a0 j) (a3 j) := by
  rw [val_main_v15_apply, val_main_v14_apply, val_main_v13_apply, val_main_call0_v4_apply, val_main_call0_v2_apply,
    val_main_call0_v1_apply, val_main_v12_apply, val_main_v11_apply]
  rfl

/-- The weight stage: the bit "0 ≤ conf ≤ 1" as a number. -/
theorem refValue_w (a1 a2 : (⟨S16777216, .f32⟩ : BufTy).Contents (Elt Ideal)) (j : S16777216.Idx) :
    val_main_v26 (F := Ideal) a1 a2 j = wS (a1 j) (a2 j) := by
  rw [val_main_v26_apply, val_main_v20_apply, val_main_v17_apply, val_main_v19_apply, val_main_v16_apply,
    val_main_v18_apply, refValue_conf]
  rfl

/-- The weighted confidence. -/
theorem refValue_cw (a1 a2 : (⟨S16777216, .f32⟩ : BufTy).Contents (Elt Ideal)) (j : S16777216.Idx) :
    val_main_v27 (F := Ideal) a1 a2 j = cwS (a1 j) (a2 j) := by
  rw [val_main_v27_apply, refValue_conf, refValue_w]
  rfl

/-- The weighted accuracy. -/
theorem refValue_aw (a0 a1 a2 a3 : (⟨S16777216, .f32⟩ : BufTy).Contents (Elt Ideal)) (j : S16777216.Idx) :
    val_main_v31 (F := Ideal) a0 a1 a2 a3 j = awS (a0 j) (a3 j) (a1 j) (a2 j) := by
  rw [val_main_v31_apply, refValue_acc, refValue_w]
  rfl

/-- The bin word: floor (conf · 15) as a signed word, clamped to 0 … 14. -/
theorem refValue_bin (a1 a2 : (⟨S16777216, .f32⟩ : BufTy).Contents (Elt Ideal)) (j : S16777216.Idx) :
    val_main_v25 (F := Ideal) a1 a2 j = binS (a1 j) (a2 j) := by
  rw [val_main_v25_apply, val_main_call1_v4_apply, val_main_call1_v2_apply, val_main_call1_v1_apply,
    val_main_v24_apply, val_main_v23_apply, val_main_v22_apply, val_main_v21_apply, refValue_conf]
  rfl

/-! ## The scatter-adds -/

/-- The dimension numbers of the two scatter-adds: one operand axis of fifteen bins, one index word per update,
    no window. -/
private abbrev refValue_D : ScatterDims S15 S16777216x1 S16777216 := scatter_S15_S16777216x1_S16777216_n_0_0_1

/-- Update `j` reads its start index at the scatter-indices position `(j, 0)`, which the index array's broadcast
    reads back at `j`. -/
theorem refValue_siIdx (j : S16777216.Idx) (c : Fin refValue_D.scatterDimsToOperandDims.length) :
    idx_main_v29 (refValue_D.siIdx j c) = j := by
  funext b
  match b with
  | ⟨0, _⟩ => rfl

/-- The start of update `j` on the one operand axis is its index word, read signed. -/
theorem refValue_start {w : Nat} (j : S16777216.Idx) (k : S16777216.Idx → BitVec w) (idx : IVec S16777216x1 w)
    (hidx : ∀ i, idx i = k (idx_main_v29 i)) (a : Fin S15.rank) :
    refValue_D.start j idx a = (k j).toInt := by
  have ha : a = 0 := Subsingleton.elim _ _
  subst ha
  unfold ScatterDims.start
  rw [dif_pos (show (0 : Fin S15.rank) ∈ refValue_D.scatterDimsToOperandDims from List.mem_singleton.2 rfl), hidx,
    refValue_siIdx]

/-- The one operand axis is an inserted one: the window coordinate on it is zero. -/
theorem refValue_window (j : S16777216.Idx) (a : Fin S15.rank) : refValue_D.window j a = 0 := by
  have ha : a = 0 := Subsingleton.elim _ _
  subst ha
  unfold ScatterDims.window
  rw [dif_neg (show ¬ (0 : Fin S15.rank) ∈ refValue_D.sKept from List.not_mem_nil)]

/-- An update lands on bin `i` exactly when its index word, read signed, is `i`. -/
theorem refValue_resultIdx_iff {w : Nat} (j : S16777216.Idx) (k : S16777216.Idx → BitVec w) (idx : IVec S16777216x1 w)
    (hidx : ∀ i, idx i = k (idx_main_v29 i)) (i : S15.Idx) :
    refValue_D.resultIdx? j idx = some i ↔ (k j).toInt = ((i 0).val : Int) := by
  have hs : ∀ a, refValue_D.start j idx a + (refValue_D.window j a : Int) = (k j).toInt := by
    intro a; rw [refValue_start j k idx hidx, refValue_window]; simp
  have hi : (i 0).val < 15 := (i 0).isLt
  unfold ScatterDims.resultIdx?
  split
  · rename_i H
    constructor
    · intro h
      have h0 := congrArg Fin.val (congrFun (Option.some.inj h) 0)
      have h1 : (refValue_D.start j idx 0 + (refValue_D.window j 0 : Int)).toNat = (i 0).val := h0
      have H0 := H 0
      rw [hs] at h1 H0
      omega
    · intro h
      congr 1
      funext a
      have ha : a = 0 := Subsingleton.elim _ _
      subst ha
      apply Fin.ext
      show (refValue_D.start j idx 0 + (refValue_D.window j 0 : Int)).toNat = (i 0).val
      rw [hs, h]; simp
  · rename_i H
    constructor
    · intro h; cases h
    · intro h
      exfalso
      apply H
      intro a
      have ha : a = 0 := Subsingleton.elim _ _
      subst ha
      rw [hs, h]
      refine ⟨by omega, ?_⟩
      show ((i 0).val : Int) < ((15 : ℕ) : Int)
      omega

/-- A 32-bit word read signed is the small natural `n` exactly when it is the word of `n`. -/
theorem refValue_toInt_iff (k : BitVec 32) (n : ℕ) (hn : n < 15) : k.toInt = (n : Int) ↔ k = BitVec.ofNat 32 n := by
  have h : (BitVec.ofNat 32 n).toNat = n := by rw [BitVec.toNat_ofNat]; exact Nat.mod_eq_of_lt (by omega)
  have h2 : (BitVec.ofNat 32 n).toInt = (n : Int) := by rw [BitVec.toInt_eq_toNat_of_lt (by rw [h]; omega), h]
  rw [← h2]
  exact BitVec.toInt_inj

/-- The scatter-add at bin `i`: the operand there plus the total of the updates whose index word is `i`. -/
theorem refValue_scatter (x : S15.Idx → EReal) (k : S16777216.Idx → BitVec 32) (idx : IVec S16777216x1 32)
    (hidx : ∀ i, idx i = k (idx_main_v29 i)) (upd : S16777216.Idx → EReal) (i : S15.Idx) :
    Ideal.hostScatterAdd refValue_D x idx upd i = x i + binTot upd k (BitVec.ofNat 32 (i 0).val) := by
  unfold Ideal.hostScatterAdd binTot
  refine congrArg (fun t => x i + t) ?_
  refine Finset.sum_congr (Finset.filter_congr (fun j _ => ?_)) (fun _ _ => rfl)
  rw [refValue_resultIdx_iff j k idx hidx i, refValue_toInt_iff _ _ (i 0).isLt]

/-- The scatter-add of the program's record over any operands whose index words are `k` read back through the
    broadcast: at bin `i`, the operand there plus the total of the updates whose word is `i`. -/
theorem refValue_scatterAdd (x : FVec Ideal S15 .f32) (idx : IVec S16777216x1 32) (upd : FVec Ideal S16777216 .f32)
    (k : S16777216.Idx → BitVec 32) (hidx : ∀ i, idx i = k (idx_main_v29 i)) (i : S15.Idx) :
    Host.scatterAdd (F := Ideal) (φ := .f32) scatter_S15_S16777216x1_S16777216_n_0_0_1 x idx upd i
      = x i + binTot upd k (BitVec.ofNat 32 (i 0).val) := by
  simp only [Host.scatterAdd, Ideal.hostScatterAdd_def]
  exact refValue_scatter x k idx hidx upd i

/-- The two scatter operands are zero rows. -/
theorem refValue_zero28 (i : S15.Idx) : val_main_v28 (F := Ideal) i = 0 := by
  rw [val_main_v28_apply]; exact Ideal.ofBits_zero_f32
theorem refValue_zero32 (i : S15.Idx) : val_main_v32 (F := Ideal) i = 0 := by
  rw [val_main_v32_apply]; exact Ideal.ofBits_zero_f32
/-- The final sum starts from zero. -/
theorem refValue_zero13 (i : S_.Idx) : val_main_cst_13 (F := Ideal) i = 0 := Ideal.ofBits_zero_f32

/-- The first scatter-add: per bin, the total weighted confidence. -/
theorem refValue_v30 (a1 a2 : (⟨S16777216, .f32⟩ : BufTy).Contents (Elt Ideal)) (i : S15.Idx) :
    val_main_v30 (F := Ideal) a1 a2 i
      = binTot (fun j => cwS (a1 j) (a2 j)) (fun j => binS (a1 j) (a2 j)) (BitVec.ofNat 32 (i 0).val) := by
  have h1 : val_main_v27 (F := Ideal) a1 a2 = fun j => cwS (a1 j) (a2 j) := funext (refValue_cw a1 a2)
  have h2 : val_main_v25 (F := Ideal) a1 a2 = fun j => binS (a1 j) (a2 j) := funext (refValue_bin a1 a2)
  unfold val_main_v30
  refine (refValue_scatterAdd _ _ _ (val_main_v25 (F := Ideal) a1 a2) (val_main_v29_apply a1 a2) i).trans ?_
  rw [refValue_zero28, zero_add, h1, h2]

/-- The second scatter-add: per bin, the total weighted accuracy. -/
theorem refValue_v34 (a0 a1 a2 a3 : (⟨S16777216, .f32⟩ : BufTy).Contents (Elt Ideal)) (i : S15.Idx) :
    val_main_v34 (F := Ideal) a0 a1 a2 a3 i
      = binTot (fun j => awS (a0 j) (a3 j) (a1 j) (a2 j)) (fun j => binS (a1 j) (a2 j)) (BitVec.ofNat 32 (i 0).val) := by
  have h1 : val_main_v31 (F := Ideal) a0 a1 a2 a3 = fun j => awS (a0 j) (a3 j) (a1 j) (a2 j) :=
    funext (refValue_aw a0 a1 a2 a3)
  have h2 : val_main_v25 (F := Ideal) a1 a2 = fun j => binS (a1 j) (a2 j) := funext (refValue_bin a1 a2)
  unfold val_main_v34
  refine (refValue_scatterAdd _ _ _ (val_main_v25 (F := Ideal) a1 a2) (val_main_v33_apply a1 a2) i).trans ?_
  rw [refValue_zero32, zero_add, h1, h2]

/-! ## The result -/

/-- The fifteen bins' index set is `Fin 15`. -/
private def refValue_binEquiv : S15.Idx ≃ Fin 15 where
  toFun j := j 0
  invFun b := ix1 b
  left_inv j := (eq_ix1 j).symm
  right_inv _ := rfl

/-- One bin's term of the final sum. -/
theorem refValue_v36 (a0 a1 a2 a3 : (⟨S16777216, .f32⟩ : BufTy).Contents (Elt Ideal)) (j : S15.Idx) :
    val_main_v36 (F := Ideal) a0 a1 a2 a3 j
      = absE (binTot (fun j => cwS (a1 j) (a2 j)) (fun j => binS (a1 j) (a2 j)) (BitVec.ofNat 32 (j 0).val)
          - binTot (fun j => awS (a0 j) (a3 j) (a1 j) (a2 j)) (fun j => binS (a1 j) (a2 j)) (BitVec.ofNat 32 (j 0).val)) := by
  rw [val_main_v36_apply, val_main_v35_apply, refValue_v30, refValue_v34, Ideal.hostAbsf_def, Ideal.subf_def]
  rfl

theorem ref_value (a0 a1 a2 a3 : (⟨S16777216, .f32⟩ : BufTy).Contents (Elt Ideal)) :
    val_main_v38 (F := Ideal) a0 a1 a2 a3 = fun _ => ece a0 a1 a2 a3 := by
  funext i
  rw [val_main_v38_apply, val_main_v37_apply, refValue_zero13, zero_add, Ideal.hostDivf_def, val_main_cst_14_apply,
    Ideal.ofBits_def]
  unfold ece
  refine congrArg (fun t => Ideal.div t fCount) ?_
  refine Fintype.sum_equiv refValue_binEquiv _ _ (fun j => ?_)
  exact refValue_v36 a0 a1 a2 a3 j

end Cert.ReferenceIdeal.Hand

end
-- ==== Proof.lean ====
/-
  The certificate of this kernel against its reference: both compute, over the extended reals, the sum over fifteen
  confidence bins of |total weighted confidence - total weighted accuracy| divided by the number of samples
  (Proof/Spec.lean's `ece`). The reference adds each sample into its bin wherever the sample lies; the kernel walks
  the samples block by block, masks by bin, sums lanes, rows and blocks, and carries the fifteen totals in a row of 128
  lanes. The two agree because a sum over a commutative monoid may be taken in any order and grouping, and a 0/1 factor
  keeps or drops a term on every extended real; no finiteness of the inputs is used.

  The three frames: the kernel's two are the generated frame certificates; the reference's is its generated run with
  the result dropped. The idealization rewrote nothing, so `preserves` is trivial. `algebraic`: the kernel's run with
  its result named (Proof/KRun.lean) and the reference's run with its result in closed form (Proof/RefValue.lean) end
  at the same `ece` of arguments that agree.
-/
import proofs.«140573_j48258252538340_1_alg».proof.Defs
import proofs.«140573_j48258252538340_1_alg».proof.Proof.Gen.Kernel
import proofs.«140573_j48258252538340_1_alg».proof.Proof.Gen.Kernel.Skeleton
import proofs.«140573_j48258252538340_1_alg».proof.Proof.Gen.Kernel.Launch
import proofs.«140573_j48258252538340_1_alg».proof.Proof.Gen.Kernel.Points
import proofs.«140573_j48258252538340_1_alg».proof.Proof.Gen.Kernel.Frame
import proofs.«140573_j48258252538340_1_alg».proof.Proof.Gen.KernelIdeal
import proofs.«140573_j48258252538340_1_alg».proof.Proof.Gen.KernelIdeal.Skeleton
import proofs.«140573_j48258252538340_1_alg».proof.Proof.Gen.KernelIdeal.Launch
import proofs.«140573_j48258252538340_1_alg».proof.Proof.Gen.KernelIdeal.Points
import proofs.«140573_j48258252538340_1_alg».proof.Proof.Gen.KernelIdeal.Frame
import proofs.«140573_j48258252538340_1_alg».proof.Proof.Gen.ReferenceIdeal
import proofs.«140573_j48258252538340_1_alg».proof.Proof.Gen.ReferenceIdeal.Run
import proofs.«140573_j48258252538340_1_alg».proof.Proof.Gen.ReferenceIdeal.Read
import proofs.«140573_j48258252538340_1_alg».proof.Proof.Gen.Pre_finite_inputs
import proofs.«140573_j48258252538340_1_alg».proof.Proof.KRun
import proofs.«140573_j48258252538340_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at `ece` of their arguments, and the arguments agree. -/
theorem algebraic : Cert.algebraic_KernelIdeal_ReferenceIdeal := by
  intro m ρ m' ρ' _ hagree
  refine ⟨fun c => fun _ => Cert.Calib.ece (Cert.KernelIdeal.Hand.arr0 m c) (Cert.KernelIdeal.Hand.arr1 m c)
      (Cert.KernelIdeal.Hand.arr2 m c) (Cert.KernelIdeal.Hand.arr3 m c), Cert.KernelIdeal.Hand.run_value m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v38_eq, Cert.ReferenceIdeal.Hand.ref_value,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
